-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x128 : Shape := ⟨3, ![64, 512, 128]⟩
abbrev S64x512x16 : Shape := ⟨3, ![64, 512, 16]⟩
abbrev S64x512 : Shape := ⟨2, ![64, 512]⟩
abbrev S128x128 : Shape := ⟨2, ![128, 128]⟩
abbrev S_ : Shape := ⟨0, ![]⟩

class Facts : Prop where
  bcast_S_S64x512x128 : S_.BroadcastsInDim S64x512x128 (![] : Fin 0 → Fin S64x512x128.rank)
  reducesTo_S64x512x128_S_d0_1_2 : S64x512x128.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S128x128 : S_.BroadcastsInDim S128x128 (![] : Fin 0 → Fin S128x128.rank)
  reducesTo_S128x128_S_d0_1 : S128x128.ReducesTo [0, 1] S_
  bcast_S_S64x512x16 : S_.BroadcastsInDim S64x512x16 (![] : Fin 0 → Fin S64x512x16.rank)
  reducesTo_S64x512x16_S_d0_1_2 : S64x512x16.ReducesTo [0, 1, 2] S_

variable [Facts]

def fn_part2 {F : FTy → Type} [FloatOps F] (main_arg1 : IVec S64x512x16 32) (main_arg3 : IVec S64x512x16 32) (main_v33 : IVec S_ 1) : IVec S_ 1 :=
  let main_c_12 : IVec S_ 32 := constantI S_ 32 0#32
  let main_v34 : IVec S64x512x16 32 := broadcastInDim S64x512x16 ![] bcast_S_S64x512x16 main_c_12
  let main_v35 : IVec S64x512x16 1 := cmpi .sge main_arg1 main_v34
  let main_c_13 : IVec S_ 1 := constantI S_ 1 1#1
  let main_v36 : IVec S_ 1 := (fun x v => Host.reduce IntOp.andi x v reducesTo_S64x512x16_S_d0_1_2 h_S_) main_v35 main_c_13
  let main_v37 : IVec S_ 1 := andi main_v33 main_v36
  let main_c_14 : IVec S_ 32 := constantI S_ 32 512#32
  let main_v38 : IVec S64x512x16 32 := broadcastInDim S64x512x16 ![] bcast_S_S64x512x16 main_c_14
  let main_v39 : IVec S64x512x16 1 := cmpi .slt main_arg1 main_v38
  let main_c_15 : IVec S_ 1 := constantI S_ 1 1#1
  let main_v40 : IVec S_ 1 := (fun x v => Host.reduce IntOp.andi x v reducesTo_S64x512x16_S_d0_1_2 h_S_) main_v39 main_c_15
  let main_v41 : IVec S_ 1 := andi main_v37 main_v40
  let main_c_16 : IVec S_ 32 := constantI S_ 32 0#32
  let main_v42 : IVec S64x512x16 32 := broadcastInDim S64x512x16 ![] bcast_S_S64x512x16 main_c_16
  let main_v43 : IVec S64x512x16 1 := cmpi .sge main_arg3 main_v42
  let main_c_17 : IVec S_ 1 := constantI S_ 1 1#1
  let main_v44 : IVec S_ 1 := (fun x v => Host.reduce IntOp.andi x v reducesTo_S64x512x16_S_d0_1_2 h_S_) main_v43 main_c_17
  let main_v45 : IVec S_ 1 := andi main_v41 main_v44
  let main_c_18 : IVec S_ 32 := constantI S_ 32 512#32
  let main_v46 : IVec S64x512x16 32 := broadcastInDim S64x512x16 ![] bcast_S_S64x512x16 main_c_18
  let main_v47 : IVec S64x512x16 1 := cmpi .slt main_arg3 main_v46
  let main_c_19 : IVec S_ 1 := constantI S_ 1 1#1
  let main_v48 : IVec S_ 1 := (fun x v => Host.reduce IntOp.andi x v reducesTo_S64x512x16_S_d0_1_2 h_S_) main_v47 main_c_19
  let main_v49 : IVec S_ 1 := andi main_v45 main_v48
  main_v49

def fn_part1 {F : FTy → Type} [FloatOps F] (main_arg1 : IVec S64x512x16 32) (main_arg3 : IVec S64x512x16 32) (main_arg6 : FVec F S128x128 .f32) (main_arg7 : FVec F S128x128 .f32) (main_arg8 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg3 main_v33

def fn {F : FTy → Type} [FloatOps F] (main_arg0 : FVec F S64x512x128 .f32) (main_arg1 : IVec S64x512x16 32) (main_arg2 : FVec F S64x512x128 .f32) (main_arg3 : IVec S64x512x16 32) (main_arg4 : FVec F S64x512 .f32) (main_arg5 : FVec F S128x128 .f32) (main_arg6 : FVec F S128x128 .f32) (main_arg7 : FVec F S128x128 .f32) (main_arg8 : FVec F S128x128 .f32) : IVec S_ 1 :=
  let main_v0 : FVec F S64x512x128 .f32 := Host.absf main_arg0
  let main_cst : FVec F S_ .f32 := constant S_ .f32 0x7F800000#32
  let main_v1 : FVec F S64x512x128 .f32 := broadcastInDim S64x512x128 ![] bcast_S_S64x512x128 main_cst
  let main_v2 : IVec S64x512x128 1 := cmpf .olt main_v0 main_v1
  let main_c : IVec S_ 1 := constantI S_ 1 1#1
  let main_v3 : IVec S_ 1 := (fun x v => Host.reduce IntOp.andi x v reducesTo_S64x512x128_S_d0_1_2 h_S_) main_v2 main_c
  let main_v4 : FVec F S64x512x128 .f32 := Host.absf main_arg2
  let main_cst_0 : FVec F S_ .f32 := constant S_ .f32 0x7F800000#32
  let main_v5 : FVec F S64x512x128 .f32 := broadcastInDim S64x512x128 ![] bcast_S_S64x512x128 main_cst_0
  let main_v6 : IVec S64x512x128 1 := cmpf .olt main_v4 main_v5
  let main_c_1 : IVec S_ 1 := constantI S_ 1 1#1
  let main_v7 : IVec S_ 1 := (fun x v => Host.reduce IntOp.andi x v reducesTo_S64x512x128_S_d0_1_2 h_S_) main_v6 main_c_1
  let main_v8 : IVec S_ 1 := andi main_v3 main_v7
  let main_v9 : FVec F S64x512 .f32 := Host.absf main_arg4
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg3 main_arg6 main_arg7 main_arg8 main_v13 main_v16
-- ==== Kernel.lean ====
abbrev S64x512x128 : Shape := ⟨3, ![64, 512, 128]⟩
abbrev S64x512x16 : Shape := ⟨3, ![64, 512, 16]⟩
abbrev S64x512 : Shape := ⟨2, ![64, 512]⟩
abbrev S128x128 : Shape := ⟨2, ![128, 128]⟩
abbrev S64x1x512 : Shape := ⟨3, ![64, 1, 512]⟩
abbrev S64x1x128 : Shape := ⟨3, ![64, 1, 128]⟩
abbrev S2x512x128 : Shape := ⟨3, ![2, 512, 128]⟩
abbrev S2x512x16 : Shape := ⟨3, ![2, 512, 16]⟩
abbrev S2x1x512 : Shape := ⟨3, ![2, 1, 512]⟩
abbrev S2x1x128 : Shape := ⟨3, ![2, 1, 128]⟩
abbrev S1x1x512 : Shape := ⟨3, ![1, 1, 512]⟩
abbrev S2x512x512 : Shape := ⟨3, ![2, 512, 512]⟩
abbrev S2x512x1 : Shape := ⟨3, ![2, 512, 1]⟩
abbrev S2x512 : Shape := ⟨2, ![2, 512]⟩
abbrev S1024x128 : Shape := ⟨2, ![1024, 128]⟩
abbrev S2x128 : Shape := ⟨2, ![2, 128]⟩
abbrev S64x128 : Shape := ⟨2, ![64, 128]⟩

abbrev nBuf : Space → Nat
  | .hbm => 12
  | .vmem => 16
  | .smem => 0
  | _ => 0

abbrev bufTy : (tb : Table) → Fin (tcTables nBuf tb) → BufTy
  | .hbm, ⟨0, _⟩ => ⟨S64x512x128, .f32⟩
  | .hbm, ⟨1, _⟩ => ⟨S64x512x16, .i32⟩
  | .hbm, ⟨2, _⟩ => ⟨S64x512x128, .f32⟩
  | .hbm, ⟨3, _⟩ => ⟨S64x512x16, .i32⟩
  | .hbm, ⟨4, _⟩ => ⟨S64x512, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S64x1x512, .f32⟩
  | .hbm, ⟨10, _⟩ => ⟨S64x1x128, .f32⟩
  | .hbm, ⟨11, _⟩ => ⟨S64x128, .f32⟩
  | .local _ .vmem, ⟨0, _⟩ => ⟨S2x512x128, .f32⟩
  | .local _ .vmem, ⟨1, _⟩ => ⟨S2x512x128, .f32⟩
  | .local _ .vmem, ⟨2, _⟩ => ⟨S2x512x128, .f32⟩
  | .local _ .vmem, ⟨3, _⟩ => ⟨S2x512x128, .f32⟩
  | .local _ .vmem, ⟨4, _⟩ => ⟨S2x512x16, .i32⟩
  | .local _ .vmem, ⟨5, _⟩ => ⟨S2x512x16, .i32⟩
  | .local _ .vmem, ⟨6, _⟩ => ⟨S2x512x16, .i32⟩
  | .local _ .vmem, ⟨7, _⟩ => ⟨S2x512x16, .i32⟩
  | .local _ .vmem, ⟨8, _⟩ => ⟨S2x1x512, .f32⟩
  | .local _ .vmem, ⟨9, _⟩ => ⟨S2x1x512, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S2x1x128, .f32⟩
  | .local _ .vmem, ⟨15, _⟩ => ⟨S2x1x128, .f32⟩
  | _, _ => ⟨S64x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S64x512_S64x1x512 : S64x512.ShapeCasts S64x1x512
  iota_S1x1x512_d2_w32 : S1x1x512.Iotas .tc 32 [2]
  inb_S2x512x16_S2x512x16_0_0_0 : ∀ a, (![0, 0, 0] : Fin 3 → Nat) a + S2x512x16.size a ≤ S2x512x16.size a
  h_S2x512x16 : 0 < S2x512x16.numel
  slices_S2x512x16_o0_0_0_S2x512x1 : S2x512x16.Slices ![0, 0, 0] S2x512x1
  shapeCasts_S2x512x1_S2x512 : S2x512x1.ShapeCasts S2x512
  shapeCasts_S2x512_S2x512x1 : S2x512.ShapeCasts S2x512x1
  broadcasts_S2x512x1_S2x512x512 : S2x512x1.Broadcasts S2x512x512
  broadcasts_S1x1x512_S2x512x512 : S1x1x512.Broadcasts S2x512x512
  natLt_1_32 : 1 < 32
  bitsLt_bf16_f32 : FTy.bits .bf16 < FTy.bits .f32
  slices_S2x512x16_o0_0_1_S2x512x1 : S2x512x16.Slices ![0, 0, 1] S2x512x1
  slices_S2x512x16_o0_0_2_S2x512x1 : S2x512x16.Slices ![0, 0, 2] S2x512x1
  slices_S2x512x16_o0_0_3_S2x512x1 : S2x512x16.Slices ![0, 0, 3] S2x512x1
  slices_S2x512x16_o0_0_4_S2x512x1 : S2x512x16.Slices ![0, 0, 4] S2x512x1
  slices_S2x512x16_o0_0_5_S2x512x1 : S2x512x16.Slices ![0, 0, 5] S2x512x1
  slices_S2x512x16_o0_0_6_S2x512x1 : S2x512x16.Slices ![0, 0, 6] S2x512x1
  slices_S2x512x16_o0_0_7_S2x512x1 : S2x512x16.Slices ![0, 0, 7] S2x512x1
  slices_S2x512x16_o0_0_8_S2x512x1 : S2x512x16.Slices ![0, 0, 8] S2x512x1
  slices_S2x512x16_o0_0_9_S2x512x1 : S2x512x16.Slices ![0, 0, 9] S2x512x1
  slices_S2x512x16_o0_0_10_S2x512x1 : S2x512x16.Slices ![0, 0, 10] S2x512x1
  slices_S2x512x16_o0_0_11_S2x512x1 : S2x512x16.Slices ![0, 0, 11] S2x512x1
  slices_S2x512x16_o0_0_12_S2x512x1 : S2x512x16.Slices ![0, 0, 12] S2x512x1
  slices_S2x512x16_o0_0_13_S2x512x1 : S2x512x16.Slices ![0, 0, 13] S2x512x1
  slices_S2x512x16_o0_0_14_S2x512x1 : S2x512x16.Slices ![0, 0, 14] S2x512x1
  slices_S2x512x16_o0_0_15_S2x512x1 : S2x512x16.Slices ![0, 0, 15] S2x512x1
  inb_S2x512x128_S2x512x128_0_0_0 : ∀ a, (![0, 0, 0] : Fin 3 → Nat) a + S2x512x128.size a ≤ S2x512x128.size a
  h_S2x512x128 : 0 < S2x512x128.numel
  inb_S128x128_S128x128_0_0 : ∀ a, (![0, 0] : Fin 2 → Nat) a + S128x128.size a ≤ S128x128.size a
  h_S128x128 : 0 < S128x128.numel
  shapeCasts_S2x512x128_S1024x128 : S2x512x128.ShapeCasts S1024x128
  shapeCasts_S1024x128_S2x512x128 : S1024x128.ShapeCasts S2x512x128
  inb_S2x1x512_S2x1x512_0_0_0 : ∀ a, (![0, 0, 0] : Fin 3 → Nat) a + S2x1x512.size a ≤ S2x1x512.size a
  h_S2x1x512 : 0 < S2x1x512.numel
  shapeCasts_S2x1x512_S2x1x512 : S2x1x512.ShapeCasts S2x1x512
  shapeCasts_S2x1x128_S2x128 : S2x1x128.ShapeCasts S2x128
  shapeCasts_S2x128_S2x1x128 : S2x128.ShapeCasts S2x1x128
  inb_S2x1x128_S2x1x128_0_0_0 : ∀ a, (![0, 0, 0] : Fin 3 → Nat) a + S2x1x128.size a ≤ S2x1x128.size a
  h_S2x1x128 : 0 < S2x1x128.numel
  shapeCasts_S64x1x128_S64x128 : S64x1x128.ShapeCasts S64x128
  dot_S2x512x512_S2x512x128_S2x512x128_2_1_1_2_0_0_wf : DotDims.WF S2x512x512 S2x512x128 S2x512x128 [2] [1] [1] [2] [0] [0]
  dot_S1024x128_S128x128_S1024x128_1_0_0_1_n_n_wf : DotDims.WF S1024x128 S128x128 S1024x128 [1] [0] [0] [1] [] []
  dot_S2x1x512_S2x512x128_S2x1x128_2_1_1_2_0_0_wf : DotDims.WF S2x1x512 S2x512x128 S2x1x128 [2] [1] [1] [2] [0] [0]
  dot_S2x128_S128x128_S2x128_1_0_0_1_n_n_wf : DotDims.WF S2x128 S128x128 S2x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x128.size a ≤ S64x512x128.size a
  hwx0_0 : ∀ i : grid0.Coords, EltTy.bits .f32 = 32 ∨ (Rect.block (s := S64x512x128) S2x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x128.size a ≤ S64x512x128.size a
  hwx0_1 : ∀ i : grid0.Coords, EltTy.bits .f32 = 32 ∨ (Rect.block (s := S64x512x128) S2x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x16.size a ≤ S64x512x16.size a
  hwx0_2 : ∀ i : grid0.Coords, EltTy.bits .i32 = 32 ∨ (Rect.block (s := S64x512x16) S2x512x16.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512x16.size a ≤ S64x512x16.size a
  hwx0_3 : ∀ i : grid0.Coords, EltTy.bits .i32 = 32 ∨ (Rect.block (s := S64x512x16) S2x512x16.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1x512.size a ≤ S64x1x512.size a
  hwx0_4 : ∀ i : grid0.Coords, EltTy.bits .f32 = 32 ∨ (Rect.block (s := S64x1x512) S2x1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2x1x128.size a ≤ S64x1x128.size a
  hwx0_9 : ∀ i : grid0.Coords, EltTy.bits .f32 = 32 ∨ (Rect.block (s := S64x1x128) S2x1x128.size (cc0_transform_9 i) (hinb0_9 i)).WholeWords (EltTy.packing .f32)

variable [Facts₀]

def dot_S2x512x512_S2x512x128_S2x512x128_2_1_1_2_0_0 : DotDims S2x512x512 S2x512x128 S2x512x128 where
  lhsContracting := [2]
  rhsContracting := [1]
  lhsNonContracting := [1]
  rhsNonContracting := [2]
  lhsBatch := [0]
  rhsBatch := [0]
  wf := dot_S2x512x512_S2x512x128_S2x512x128_2_1_1_2_0_0_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S2x1x512_S2x512x128_S2x1x128_2_1_1_2_0_0 : DotDims S2x1x512 S2x512x128 S2x1x128 where
  lhsContracting := [2]
  rhsContracting := [1]
  lhsNonContracting := [1]
  rhsNonContracting := [2]
  lhsBatch := [0]
  rhsBatch := [0]
  wf := dot_S2x1x512_S2x512x128_S2x1x128_2_1_1_2_0_0_wf
def dot_S2x128_S128x128_S2x128_1_0_0_1_n_n : DotDims S2x128 S128x128 S2x128 where
  lhsContracting := [1]
  rhsContracting := [0]
  lhsNonContracting := [0]
  rhsNonContracting := [1]
  lhsBatch := []
  rhsBatch := []
  wf := dot_S2x128_S128x128_S2x128_1_0_0_1_n_n_wf

abbrev win0_0 : Pipeline.Window sig grid0 :=
  Pipeline.Window.ofSpec (Memref.whole main_arg0) S2x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2x512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x512x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S2x1x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x512x128 : Shape := ⟨3, ![64, 512, 128]⟩
abbrev S64x512x16 : Shape := ⟨3, ![64, 512, 16]⟩
abbrev S64x512 : Shape := ⟨2, ![64, 512]⟩
abbrev S128x128 : Shape := ⟨2, ![128, 128]⟩
abbrev S_ : Shape := ⟨0, ![]⟩
abbrev S64x512x16x1 : Shape := ⟨4, ![64, 512, 16, 1]⟩
abbrev S64x512x16x128 : Shape := ⟨4, ![64, 512, 16, 128]⟩
abbrev S64x512x1 : Shape := ⟨3, ![64, 512, 1]⟩
abbrev S64x128 : Shape := ⟨2, ![64, 128]⟩

abbrev nBuf : Space → Nat
  | .hbm => 69
  | .vmem => 0
  | .smem => 0
  | _ => 0

abbrev bufTy : (tb : Table) → Fin (tcTables nBuf tb) → BufTy
  | .hbm, ⟨0, _⟩ => ⟨S64x512x128, .f32⟩
  | .hbm, ⟨1, _⟩ => ⟨S64x512x16, .i32⟩
  | .hbm, ⟨2, _⟩ => ⟨S64x512x128, .f32⟩
  | .hbm, ⟨3, _⟩ => ⟨S64x512x16, .i32⟩
  | .hbm, ⟨4, _⟩ => ⟨S64x512, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S_, .i32⟩
  | .hbm, ⟨10, _⟩ => ⟨S64x512x16, .i32⟩
  | .hbm, ⟨11, _⟩ => ⟨S64x512x16, .i1⟩
  | .hbm, ⟨12, _⟩ => ⟨S_, .i32⟩
  | .hbm, ⟨13, _⟩ => ⟨S64x512x16, .i32⟩
  | .hbm, ⟨14, _⟩ => ⟨S64x512x16, .i32⟩
  | .hbm, ⟨15, _⟩ => ⟨S64x512x16, .i32⟩
  | .hbm, ⟨16, _⟩ => ⟨S64x512x16x1, .i32⟩
  | .hbm, ⟨17, _⟩ => ⟨S64x512x16x128, .f32⟩
  | .hbm, ⟨18, _⟩ => ⟨S_, .f32⟩
  | .hbm, ⟨19, _⟩ => ⟨S64x512x128, .f32⟩
  | .hbm, ⟨20, _⟩ => ⟨S_, .f32⟩
  | .hbm, ⟨21, _⟩ => ⟨S64x512x128, .f32⟩
  | .hbm, ⟨22, _⟩ => ⟨S64x512x128, .f32⟩
  | .hbm, ⟨23, _⟩ => ⟨S64x512x128, .f32⟩
  | .hbm, ⟨24, _⟩ => ⟨S64x512x128, .f32⟩
  | .hbm, ⟨25, _⟩ => ⟨S_, .f32⟩
  | .hbm, ⟨26, _⟩ => ⟨S64x512x128, .f32⟩
  | .hbm, ⟨27, _⟩ => ⟨S_, .i32⟩
  | .hbm, ⟨28, _⟩ => ⟨S64x512x16, .i32⟩
  | .hbm, ⟨29, _⟩ => ⟨S64x512x16, .i1⟩
  | .hbm, ⟨30, _⟩ => ⟨S_, .i32⟩
  | .hbm, ⟨31, _⟩ => ⟨S64x512x16, .i32⟩
  | .hbm, ⟨32, _⟩ => ⟨S64x512x16, .i32⟩
  | .hbm, ⟨33, _⟩ => ⟨S64x512x16, .i32⟩
  | .hbm, ⟨34, _⟩ => ⟨S64x512x16x1, .i32⟩
  | .hbm, ⟨35, _⟩ => ⟨S64x512x16x128, .f32⟩
  | .hbm, ⟨36, _⟩ => ⟨S_, .f32⟩
  | .hbm, ⟨37, _⟩ => ⟨S64x512x128, .f32⟩
  | .hbm, ⟨38, _⟩ => ⟨S_, .f32⟩
  | .hbm, ⟨39, _⟩ => ⟨S64x512x128, .f32⟩
  | .hbm, ⟨40, _⟩ => ⟨S64x512x128, .f32⟩
  | .hbm, ⟨41, _⟩ => ⟨S64x512x128, .f32⟩
  | .hbm, ⟨42, _⟩ => ⟨S64x512x128, .f32⟩
  | .hbm, ⟨43, _⟩ => ⟨S64x512x128, .f32⟩
  | .hbm, ⟨44, _⟩ => ⟨S64x512x128, .f32⟩
  | .hbm, ⟨45, _⟩ => ⟨S_, .i32⟩
  | .hbm, ⟨46, _⟩ => ⟨S64x512x16, .i32⟩
  | .hbm, ⟨47, _⟩ => ⟨S64x512x16, .i1⟩
  | .hbm, ⟨48, _⟩ => ⟨S_, .i32⟩
  | .hbm, ⟨49, _⟩ => ⟨S64x512x16, .i32⟩
  | .hbm, ⟨50, _⟩ => ⟨S64x512x16, .i32⟩
  | .hbm, ⟨51, _⟩ => ⟨S64x512x16, .i32⟩
  | .hbm, ⟨52, _⟩ => ⟨S64x512x16x1, .i32⟩
  | .hbm, ⟨53, _⟩ => ⟨S64x512x16x128, .f32⟩
  | .hbm, ⟨54, _⟩ => ⟨S_, .f32⟩
  | .hbm, ⟨55, _⟩ => ⟨S64x512x128, .f32⟩
  | .hbm, ⟨56, _⟩ => ⟨S_, .f32⟩
  | .hbm, ⟨57, _⟩ => ⟨S64x512x128, .f32⟩
  | .hbm, ⟨58, _⟩ => ⟨S64x512x128, .f32⟩
  | .hbm, ⟨59, _⟩ => ⟨S64x512x128, .f32⟩
  | .hbm, ⟨60, _⟩ => ⟨S64x512x128, .f32⟩
  | .hbm, ⟨61, _⟩ => ⟨S64x512x128, .f32⟩
  | .hbm, ⟨62, _⟩ => ⟨S64x512x128, .f32⟩
  | .hbm, ⟨63, _⟩ => ⟨S64x512x1, .f32⟩
  | .hbm, ⟨64, _⟩ => ⟨S64x512x128, .f32⟩
  | .hbm, ⟨65, _⟩ => ⟨S64x512x128, .f32⟩
  | .hbm, ⟨66, _⟩ => ⟨S_, .f32⟩
  | .hbm, ⟨67, _⟩ => ⟨S64x128, .f32⟩
  | .hbm, ⟨68, _⟩ => ⟨S64x128, .f32⟩
  | _, _ => ⟨S64x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_7 : Ref sig .tc := ⟨.hbm, 45, rfl⟩
abbrev main_v27 : Ref sig .tc := ⟨.hbm, 46, rfl⟩
abbrev main_v28 : Ref sig .tc := ⟨.hbm, 47, rfl⟩
abbrev main_c_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]

class Facts₀ : Prop where
  bcast_S_S64x512x16 : S_.BroadcastsInDim S64x512x16 (![] : Fin 0 → Fin S64x512x16.rank)
  bcast_S64x512x16_S64x512x16x1_0_1_2 : S64x512x16.BroadcastsInDim S64x512x16x1 (![0, 1, 2] : Fin 3 → Fin S64x512x16x1.rank)
  reducesTo_S64x512x16x128_S64x512x128_d2 : S64x512x16x128.ReducesTo [2] S64x512x128
  h_S_ : 0 < S_.numel
  bcast_S_S64x512x128 : S_.BroadcastsInDim S64x512x128 (![] : Fin 0 → Fin S64x512x128.rank)
  bcast_S64x512_S64x512x1_0_1 : S64x512.BroadcastsInDim S64x512x1 (![0, 1] : Fin 2 → Fin S64x512x1.rank)
  bcast_S64x512x1_S64x512x128_0_1_2 : S64x512x1.BroadcastsInDim S64x512x128 (![0, 1, 2] : Fin 3 → Fin S64x512x128.rank)
  reducesTo_S64x512x128_S64x128_d1 : S64x512x128.ReducesTo [1] S64x128
  gather_S64x512x128_S64x512x16x1_S64x512x16x128_3_1_0_0_1_3_11128_wf : GatherDims.WF S64x512x128 S64x512x16x1 S64x512x16x128 [3] [1] [0] [1] [0] 3 ![1, 1, 128]
  dot_S64x512x128_S128x128_S64x512x128_2_0_01_1_n_n_wf : DotDims.WF S64x512x128 S128x128 S64x512x128 [2] [0] [0, 1] [1] [] []
  dot_S64x128_S128x128_S64x128_1_0_0_1_n_n_wf : DotDims.WF S64x128 S128x128 S64x128 [1] [0] [0] [1] [] []

variable [Facts₀]

def gather_S64x512x128_S64x512x16x1_S64x512x16x128_3_1_0_0_1_3_11128 : GatherDims S64x512x128 S64x512x16x1 S64x512x16x128 where
  offsetDims := [3]
  collapsedSliceDims := [1]
  operandBatchingDims := [0]
  startIndicesBatchingDims := [0]
  startIndexMap := [1]
  indexVectorDim := 3
  sliceSizes := ![1, 1, 128]
  wf := gather_S64x512x128_S64x512x16x1_S64x512x16x128_3_1_0_0_1_3_11128_wf
def dot_S64x512x128_S128x128_S64x512x128_2_0_01_1_n_n : DotDims S64x512x128 S128x128 S64x512x128 where
  lhsContracting := [2]
  rhsContracting := [0]
  lhsNonContracting := [0, 1]
  rhsNonContracting := [1]
  lhsBatch := []
  rhsBatch := []
  wf := dot_S64x512x128_S128x128_S64x512x128_2_0_01_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

class Facts : Prop extends Facts₀ where

variable [Facts]
-- ==== Proof.Spec.lean ====
/-
  The graph network of this certificate as one function of its argument arrays, batch by batch.

  For one batch element, with N = 512 nodes, K = 16 neighbour slots and 128 features:

    aggLib n e   = Σ_w mean_k lib (nbl n k) w · wt w e          (neighbour mean of the library rows, projected)
    wordProj n e = Σ_w word n w · e1 w e
    embed1 n e   = tanh (wordProj n e + aggLib n e)
    embed2 n f   = tanh ((wordProj n f + Σ_e mean_k embed1 (nb n k) e · e2 e f) + aggLib n f)
    pooled e     = Σ_n mask n · embed2 n e
    out f        = Σ_e pooled e · wt2 e f

  where mean_k x (j k) = (Σ_k x (j k)) · (1/16).  One side of the certificate gathers the K rows and divides
  by 16; the other multiplies by a dense N × N matrix whose entry (n, m) is 1/16 times the number of slots k
  with j k = m.  `onehot_mean` is the law between the two: it holds on all extended reals, since the matrix
  entries are nonnegative and finite, which is exactly when multiplication distributes over a sum there.
-/
import Idealize.ShloMosaic.PureOps.Ideal
import Idealize.ShloMosaic.Lib.ValueIdx
import Mathlib.Data.EReal.Operations

noncomputable section

namespace GnnSpec

open Idealize.ShloMosaic Idealize.ShloMosaic.ValueIdx
open scoped BigOperators

/-- The node a 32-bit index word names. For a word in range (below 512) it is the word's value. -/
def nodeOf (w : BitVec 32) : Fin 512 := ⟨w.toNat % 512, Nat.mod_lt _ (by norm_num)⟩

theorem nodeOf_val_of_lt {w : BitVec 32} (h : w.toNat < 512) : (nodeOf w).val = w.toNat := Nat.mod_eq_of_lt h

/-- The reciprocal of the number of neighbour slots. -/
def invK : EReal := ((1 / 16 : ℝ) : EReal)

theorem invK_nonneg : 0 ≤ invK := by unfold invK; exact_mod_cast (by norm_num : (0 : ℝ) ≤ 1 / 16)
theorem invK_ne_top : invK ≠ ⊤ := EReal.coe_ne_top _

/-- The mean over the K = 16 neighbour slots of the values `x` at the nodes `j k`. -/
def meanNb (x : Fin 512 → EReal) (j : Fin 16 → Fin 512) : EReal := (∑ k, x (j k)) * invK

/-! ## Sums against a nonnegative finite factor -/

/-- A finite sum times a nonnegative finite factor is the sum of the products. -/
theorem sum_mul_of_nonneg_ne_top {ι : Type*} (s : Finset ι) (a : ι → EReal) {c : EReal} (hc : 0 ≤ c) (hc' : c ≠ ⊤) :
    (∑ i ∈ s, a i) * c = ∑ i ∈ s, a i * c := by
  classical
  refine Finset.induction_on s (by simp) ?_
  intro i s hi ih
  rw [Finset.sum_insert hi, Finset.sum_insert hi, EReal.right_distrib_of_nonneg_of_ne_top hc hc', ih]

/-- A finite sum of nonnegative terms times anything is the sum of the products. -/
theorem sum_nonneg_mul {ι : Type*} (s : Finset ι) (a : ι → EReal) (ha : ∀ i ∈ s, 0 ≤ a i) (x : EReal) :
    (∑ i ∈ s, a i) * x = ∑ i ∈ s, a i * x := by
  classical
  induction s using Finset.induction_on with
  | empty => simp
  | insert i s hi ih =>
    rw [Finset.sum_insert hi, Finset.sum_insert hi,
      EReal.right_distrib_of_nonneg (ha i (Finset.mem_insert_self i s))
        (Finset.sum_nonneg fun k hk => ha k (Finset.mem_insert_of_mem hk)),
      ih fun k hk => ha k (Finset.mem_insert_of_mem hk)]

/-- One slot's indicator row against `x`: only the named node contributes. -/
theorem sum_indicator_mul (x : Fin 512 → EReal) (j : Fin 512) :
    ∑ m : Fin 512, ((if j = m then (1 : EReal) else 0) * invK) * x m = x j * invK := by
  rw [Finset.sum_eq_single j]
  · rw [if_pos rfl, one_mul, mul_comm]
  · intro m _ hm
    rw [if_neg (fun h => hm h.symm), zero_mul, zero_mul]
  · intro h; exact absurd (Finset.mem_univ j) h

/-- THE LAW. The dense matrix with entry (·, m) equal to 1/16 times the number of slots naming node m, applied
    to `x`, is the mean of `x` over the named nodes. On all extended reals. -/
theorem onehot_mean (x : Fin 512 → EReal) (j : Fin 16 → Fin 512) :
    ∑ m : Fin 512, ((∑ k : Fin 16, (if j k = m then (1 : EReal) else 0)) * invK) * x m = meanNb x j := by
  have hind : ∀ (k : Fin 16) (m : Fin 512), (0 : EReal) ≤ (if j k = m then (1 : EReal) else 0) := by
    intro k m; split_ifs <;> simp
  have step : ∀ m : Fin 512, ((∑ k : Fin 16, (if j k = m then (1 : EReal) else 0)) * invK) * x m
      = ∑ k : Fin 16, ((if j k = m then (1 : EReal) else 0) * invK) * x m := by
    intro m
    rw [sum_mul_of_nonneg_ne_top _ _ invK_nonneg invK_ne_top,
      sum_nonneg_mul _ _ (fun k _ => mul_nonneg (hind k m) invK_nonneg)]
  simp only [step]
  rw [Finset.sum_comm]
  simp only [sum_indicator_mul]
  unfold meanNb
  rw [sum_mul_of_nonneg_ne_top _ _ invK_nonneg invK_ne_top]

/-! ## One batch element -/

section Batch

variable (word lib : Fin 512 → Fin 128 → EReal) (nb nbl : Fin 512 → Fin 16 → Fin 512) (mask : Fin 512 → EReal)
  (wt wt2 e1 e2 : Fin 128 → Fin 128 → EReal)

/-- The neighbour mean of the library rows, projected by `wt`. -/
def aggLib (n : Fin 512) (e : Fin 128) : EReal := ∑ w : Fin 128, meanNb (fun m => lib m w) (nbl n) * wt w e

/-- The word rows projected by `e1`. -/
def wordProj (n : Fin 512) (e : Fin 128) : EReal := ∑ w : Fin 128, word n w * e1 w e

/-- The node embedding after the first round (the round that aggregates the all-zero start adds nothing). -/
def embed1 (n : Fin 512) (e : Fin 128) : EReal := Ideal.tanh (wordProj word e1 n e + aggLib lib nbl wt n e)

/-- The node embedding after the second round. -/
def embed2 (n : Fin 512) (f : Fin 128) : EReal :=
  Ideal.tanh ((wordProj word e1 n f
      + ∑ e : Fin 128, meanNb (fun m => embed1 word lib nbl wt e1 m e) (nb n) * e2 e f)
    + aggLib lib nbl wt n f)

/-- The masked sum over the nodes. -/
def pooled (e : Fin 128) : EReal := ∑ n : Fin 512, mask n * embed2 word lib nb nbl wt e1 e2 n e

/-- One batch element's output row. -/
def out (f : Fin 128) : EReal := ∑ e : Fin 128, pooled word lib nb nbl mask wt e1 e2 e * wt2 e f

end Batch

/-! ## The whole arrays -/

/-- The result array [64, 128] as a function of the nine argument arrays: row `b` is batch element `b`'s output. -/
def G (word : (⟨3, ![64, 512, 128]⟩ : Shape).Idx → EReal) (nbW : (⟨3, ![64, 512, 16]⟩ : Shape).Idx → BitVec 32)
    (lib : (⟨3, ![64, 512, 128]⟩ : Shape).Idx → EReal) (nblW : (⟨3, ![64, 512, 16]⟩ : Shape).Idx → BitVec 32)
    (mask : (⟨2, ![64, 512]⟩ : Shape).Idx → EReal)
    (wt wt2 e1 e2 : (⟨2, ![128, 128]⟩ : Shape).Idx → EReal) : (⟨2, ![64, 128]⟩ : Shape).Idx → EReal :=
  fun i => out (fun n w => word (ix3 (i 0) n w)) (fun n w => lib (ix3 (i 0) n w))
    (fun n k => nodeOf (nbW (ix3 (i 0) n k))) (fun n k => nodeOf (nblW (ix3 (i 0) n k)))
    (fun n => mask (ix2 (i 0) n))
    (fun a b => wt (ix2 a b)) (fun a b => wt2 (ix2 a b)) (fun a b => e1 (ix2 a b)) (fun a b => e2 (ix2 a b)) (i 1)

end GnnSpec

end
-- ==== Proof.KernelDots.lean ====
/-
  The kernel body's matrix products read at an index.

  The body multiplies in four shapes: a batched [2,512,512] · [2,512,128] product (an adjacency applied to the
  node rows), a projection of the 2 · 512 node rows through a [128,128] matrix done on the rows flattened to
  [1024,128], the mask row [2,1,512] against the node rows, and the pooled rows [2,128] through a [128,128] matrix.
  Each, into a zero accumulator at exact arithmetic, is the plain sum over the contracted axis.
-/
import proofs.«406225_j87170656239793_3_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.KDots

open Idealize.ShloMosaic Idealize.ShloMosaic.ValueIdx Cert.KernelIdeal
open scoped BigOperators

/-! ## The batched [2,512,512] · [2,512,128] product: which operand coordinates an output index and a contraction index name -/

theorem lhs_bmm_0 (i : S2x512x128.Idx) (q : dot_S2x512x512_S2x512x128_S2x512x128_2_1_1_2_0_0.contr.Idx) :
    (dot_S2x512x512_S2x512x128_S2x512x128_2_1_1_2_0_0.lhsIdx i q 0).val = (i 0).val := by
  unfold DotDims.lhsIdx
  rw [dif_pos (show (0 : Fin S2x512x512.rank) ∈ dot_S2x512x512_S2x512x128_S2x512x128_2_1_1_2_0_0.lhsBatch by decide)]
  rfl
theorem lhs_bmm_1 (i : S2x512x128.Idx) (q : dot_S2x512x512_S2x512x128_S2x512x128_2_1_1_2_0_0.contr.Idx) :
    (dot_S2x512x512_S2x512x128_S2x512x128_2_1_1_2_0_0.lhsIdx i q 1).val = (i 1).val := by
  unfold DotDims.lhsIdx
  rw [dif_neg (show ¬(1 : Fin S2x512x512.rank) ∈ dot_S2x512x512_S2x512x128_S2x512x128_2_1_1_2_0_0.lhsBatch by decide), dif_pos (show (1 : Fin S2x512x512.rank) ∈ dot_S2x512x512_S2x512x128_S2x512x128_2_1_1_2_0_0.lhsNonContracting by decide)]
  rfl
theorem lhs_bmm_2 (i : S2x512x128.Idx) (q : dot_S2x512x512_S2x512x128_S2x512x128_2_1_1_2_0_0.contr.Idx) :
    (dot_S2x512x512_S2x512x128_S2x512x128_2_1_1_2_0_0.lhsIdx i q 2).val = (q ⟨0, by decide⟩).val :=
  dot_S2x512x512_S2x512x128_S2x512x128_2_1_1_2_0_0.lhsIdx_val_of_single rfl i q
theorem rhs_bmm_0 (i : S2x512x128.Idx) (q : dot_S2x512x512_S2x512x128_S2x512x128_2_1_1_2_0_0.contr.Idx) :
    (dot_S2x512x512_S2x512x128_S2x512x128_2_1_1_2_0_0.rhsIdx i q 0).val = (i 0).val := by
  unfold DotDims.rhsIdx
  rw [dif_pos (show (0 : Fin S2x512x128.rank) ∈ dot_S2x512x512_S2x512x128_S2x512x128_2_1_1_2_0_0.rhsBatch by decide)]
  rfl
theorem rhs_bmm_1 (i : S2x512x128.Idx) (q : dot_S2x512x512_S2x512x128_S2x512x128_2_1_1_2_0_0.contr.Idx) :
    (dot_S2x512x512_S2x512x128_S2x512x128_2_1_1_2_0_0.rhsIdx i q 1).val = (q ⟨0, by decide⟩).val :=
  dot_S2x512x512_S2x512x128_S2x512x128_2_1_1_2_0_0.rhsIdx_val_of_single rfl i q
theorem rhs_bmm_2 (i : S2x512x128.Idx) (q : dot_S2x512x512_S2x512x128_S2x512x128_2_1_1_2_0_0.contr.Idx) :
    (dot_S2x512x512_S2x512x128_S2x512x128_2_1_1_2_0_0.rhsIdx i q 2).val = (i 2).val := by
  unfold DotDims.rhsIdx
  rw [dif_neg (show ¬(2 : Fin S2x512x128.rank) ∈ dot_S2x512x512_S2x512x128_S2x512x128_2_1_1_2_0_0.rhsBatch by decide), dif_pos (show (2 : Fin S2x512x128.rank) ∈ dot_S2x512x512_S2x512x128_S2x512x128_2_1_1_2_0_0.rhsNonContracting by decide)]
  rfl

/-! ## The plain [1024,128] · [128,128] product -/

theorem lhs_proj_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_proj_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_proj_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_proj_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-! ## The batched [2,1,512] · [2,512,128] product -/

theorem lhs_pool_0 (i : S2x1x128.Idx) (q : dot_S2x1x512_S2x512x128_S2x1x128_2_1_1_2_0_0.contr.Idx) :
    (dot_S2x1x512_S2x512x128_S2x1x128_2_1_1_2_0_0.lhsIdx i q 0).val = (i 0).val := by
  unfold DotDims.lhsIdx
  rw [dif_pos (show (0 : Fin S2x1x512.rank) ∈ dot_S2x1x512_S2x512x128_S2x1x128_2_1_1_2_0_0.lhsBatch by decide)]
  rfl
theorem lhs_pool_1 (i : S2x1x128.Idx) (q : dot_S2x1x512_S2x512x128_S2x1x128_2_1_1_2_0_0.contr.Idx) :
    (dot_S2x1x512_S2x512x128_S2x1x128_2_1_1_2_0_0.lhsIdx i q 1).val = (i 1).val := by
  unfold DotDims.lhsIdx
  rw [dif_neg (show ¬(1 : Fin S2x1x512.rank) ∈ dot_S2x1x512_S2x512x128_S2x1x128_2_1_1_2_0_0.lhsBatch by decide), dif_pos (show (1 : Fin S2x1x512.rank) ∈ dot_S2x1x512_S2x512x128_S2x1x128_2_1_1_2_0_0.lhsNonContracting by decide)]
  rfl
theorem lhs_pool_2 (i : S2x1x128.Idx) (q : dot_S2x1x512_S2x512x128_S2x1x128_2_1_1_2_0_0.contr.Idx) :
    (dot_S2x1x512_S2x512x128_S2x1x128_2_1_1_2_0_0.lhsIdx i q 2).val = (q ⟨0, by decide⟩).val :=
  dot_S2x1x512_S2x512x128_S2x1x128_2_1_1_2_0_0.lhsIdx_val_of_single rfl i q
theorem rhs_pool_0 (i : S2x1x128.Idx) (q : dot_S2x1x512_S2x512x128_S2x1x128_2_1_1_2_0_0.contr.Idx) :
    (dot_S2x1x512_S2x512x128_S2x1x128_2_1_1_2_0_0.rhsIdx i q 0).val = (i 0).val := by
  unfold DotDims.rhsIdx
  rw [dif_pos (show (0 : Fin S2x512x128.rank) ∈ dot_S2x1x512_S2x512x128_S2x1x128_2_1_1_2_0_0.rhsBatch by decide)]
  rfl
theorem rhs_pool_1 (i : S2x1x128.Idx) (q : dot_S2x1x512_S2x512x128_S2x1x128_2_1_1_2_0_0.contr.Idx) :
    (dot_S2x1x512_S2x512x128_S2x1x128_2_1_1_2_0_0.rhsIdx i q 1).val = (q ⟨0, by decide⟩).val :=
  dot_S2x1x512_S2x512x128_S2x1x128_2_1_1_2_0_0.rhsIdx_val_of_single rfl i q
theorem rhs_pool_2 (i : S2x1x128.Idx) (q : dot_S2x1x512_S2x512x128_S2x1x128_2_1_1_2_0_0.contr.Idx) :
    (dot_S2x1x512_S2x512x128_S2x1x128_2_1_1_2_0_0.rhsIdx i q 2).val = (i 2).val := by
  unfold DotDims.rhsIdx
  rw [dif_neg (show ¬(2 : Fin S2x512x128.rank) ∈ dot_S2x1x512_S2x512x128_S2x1x128_2_1_1_2_0_0.rhsBatch by decide), dif_pos (show (2 : Fin S2x512x128.rank) ∈ dot_S2x1x512_S2x512x128_S2x1x128_2_1_1_2_0_0.rhsNonContracting by decide)]
  rfl

/-! ## The plain [2,128] · [128,128] product -/

theorem lhs_final_0 (i : S2x128.Idx) (q : dot_S2x128_S128x128_S2x128_1_0_0_1_n_n.contr.Idx) :
    (dot_S2x128_S128x128_S2x128_1_0_0_1_n_n.lhsIdx i q 0).val = (i 0).val := by
  unfold DotDims.lhsIdx
  rw [dif_neg (show ¬(0 : Fin S2x128.rank) ∈ dot_S2x128_S128x128_S2x128_1_0_0_1_n_n.lhsBatch by decide), dif_pos (show (0 : Fin S2x128.rank) ∈ dot_S2x128_S128x128_S2x128_1_0_0_1_n_n.lhsNonContracting by decide)]
  rfl
theorem lhs_final_1 (i : S2x128.Idx) (q : dot_S2x128_S128x128_S2x128_1_0_0_1_n_n.contr.Idx) :
    (dot_S2x128_S128x128_S2x128_1_0_0_1_n_n.lhsIdx i q 1).val = (q ⟨0, by decide⟩).val :=
  dot_S2x128_S128x128_S2x128_1_0_0_1_n_n.lhsIdx_val_of_single rfl i q
theorem rhs_final_0 (i : S2x128.Idx) (q : dot_S2x128_S128x128_S2x128_1_0_0_1_n_n.contr.Idx) :
    (dot_S2x128_S128x128_S2x128_1_0_0_1_n_n.rhsIdx i q 0).val = (q ⟨0, by decide⟩).val :=
  dot_S2x128_S128x128_S2x128_1_0_0_1_n_n.rhsIdx_val_of_single rfl i q
theorem rhs_final_1 (i : S2x128.Idx) (q : dot_S2x128_S128x128_S2x128_1_0_0_1_n_n.contr.Idx) :
    (dot_S2x128_S128x128_S2x128_1_0_0_1_n_n.rhsIdx i q 1).val = (i 1).val := by
  unfold DotDims.rhsIdx
  rw [dif_neg (show ¬(1 : Fin S128x128.rank) ∈ dot_S2x128_S128x128_S2x128_1_0_0_1_n_n.rhsBatch by decide), dif_pos (show (1 : Fin S128x128.rank) ∈ dot_S2x128_S128x128_S2x128_1_0_0_1_n_n.rhsNonContracting by decide)]
  rfl

/-! ## The reshapes: rows (p, n) of [2,512,·] are rows 512 p + n of [1024,·]; a unit middle axis is dropped or restored -/

/-- Row n of member p, in the flattened order. -/
def row (p : Fin 2) (n : Fin 512) : Fin 1024 := ⟨512 * p.val + n.val, by omega⟩

/-- The flat [1024,128] array seen as [2,512,128]: entry (p, n, e) is row 512 p + n, column e. -/
theorem unflatten_apply {α : Type} (Y : S1024x128.Idx → α) (h : S1024x128.ShapeCasts S2x512x128) (p : Fin 2) (n : Fin 512)
    (e : Fin 128) : shapeCast S2x512x128 Y h (ix3 p n e) = Y (ix2 (row p n) e) :=
  shapeCast_apply Y h _ _ (by
    rw [Shape.rowMajor_val_two, Shape.rowMajor_val_three]
    show (512 * p.val + n.val) * 128 + e.val = (p.val * 512 + n.val) * 128 + e.val
    omega)

/-- The [2,512,128] array flattened: row 512 p + n, column w is entry (p, n, w). -/
theorem flatten_apply {α : Type} (X : S2x512x128.Idx → α) (h : S2x512x128.ShapeCasts S1024x128) (p : Fin 2) (n : Fin 512)
    (w : Fin 128) : shapeCast S1024x128 X h (ix2 (row p n) w) = X (ix3 p n w) :=
  shapeCast_apply X h _ _ (by
    rw [Shape.rowMajor_val_three, Shape.rowMajor_val_two]
    show (p.val * 512 + n.val) * 128 + w.val = (512 * p.val + n.val) * 128 + w.val
    omega)

/-- A [2,128] array seen as [2,1,128]: entry (p, 0, f) is entry (p, f). -/
theorem addUnit_apply {α : Type} (Y : S2x128.Idx → α) (h : S2x128.ShapeCasts S2x1x128) (p : Fin 2) (f : Fin 128) :
    shapeCast S2x1x128 Y h (ix3 p 0 f) = Y (ix2 p f) :=
  shapeCast_apply Y h _ _ (by
    rw [Shape.rowMajor_val_two, Shape.rowMajor_val_three]
    show p.val * 128 + f.val = (p.val * 1 + 0) * 128 + f.val
    omega)

/-- A [2,1,128] array with its unit axis dropped: entry (p, e) is entry (p, 0, e). -/
theorem dropUnit_apply {α : Type} (P : S2x1x128.Idx → α) (h : S2x1x128.ShapeCasts S2x128) (p : Fin 2) (e : Fin 128) :
    shapeCast S2x128 P h (ix2 p e) = P (ix3 p 0 e) :=
  shapeCast_apply P h _ _ (by
    rw [Shape.rowMajor_val_three, Shape.rowMajor_val_two]
    show (p.val * 1 + 0) * 128 + e.val = p.val * 128 + e.val
    omega)

/-! ## The four products at an index -/

/-- The batched product: entry (p, n, w) sums over the middle axis m of A (p, n, m) · X (p, m, w). -/
theorem bmm_apply (A : FVec Ideal S2x512x512 .bf16) (X : FVec Ideal S2x512x128 .bf16) (prec : Option ContractPrecision)
    (p : Fin 2) (n : Fin 512) (w : Fin 128) :
    matmul dot_S2x512x512_S2x512x128_S2x512x128_2_1_1_2_0_0 prec A X (constant S2x512x128 .f32 0x00000000#32) (ix3 p n w)
      = ∑ m : Fin 512, A (ix3 p n m) * X (ix3 p m w) := by
  simp only [matmul]
  rw [Ideal.matmul_constant_zero_apply, ← Equiv.sum_comp (contrEquiv1 dot_S2x512x512_S2x512x128_S2x512x128_2_1_1_2_0_0 512 rfl rfl).symm]
  refine Finset.sum_congr rfl fun k _ => ?_
  have hk := contrEquiv1_symm_val dot_S2x512x512_S2x512x128_S2x512x128_2_1_1_2_0_0 512 rfl rfl k
  have el : dot_S2x512x512_S2x512x128_S2x512x128_2_1_1_2_0_0.lhsIdx (ix3 p n w) ((contrEquiv1 dot_S2x512x512_S2x512x128_S2x512x128_2_1_1_2_0_0 512 rfl rfl).symm k) = ix3 p n k := funext fun a => Fin.ext (by
    match a with
    | ⟨0, _⟩ => exact lhs_bmm_0 _ _
    | ⟨1, _⟩ => exact lhs_bmm_1 _ _
    | ⟨2, _⟩ => exact (lhs_bmm_2 _ _).trans hk)
  have er : dot_S2x512x512_S2x512x128_S2x512x128_2_1_1_2_0_0.rhsIdx (ix3 p n w) ((contrEquiv1 dot_S2x512x512_S2x512x128_S2x512x128_2_1_1_2_0_0 512 rfl rfl).symm k) = ix3 p k w := funext fun a => Fin.ext (by
    match a with
    | ⟨0, _⟩ => exact rhs_bmm_0 _ _
    | ⟨1, _⟩ => exact (rhs_bmm_1 _ _).trans hk
    | ⟨2, _⟩ => exact rhs_bmm_2 _ _)
  rw [el, er]

/-- The projection through the flattened rows: entry (p, n, e) sums over w of X (p, n, w) · W (w, e). -/
theorem proj_apply (X : FVec Ideal S2x512x128 .f32) (W : FVec Ideal S128x128 .f32) (prec : Option ContractPrecision)
    (h1 : S2x512x128.ShapeCasts S1024x128) (h2 : S1024x128.ShapeCasts S2x512x128)
    (hb : (FTy.bf16).bits < (FTy.f32).bits) (p : Fin 2) (n : Fin 512) (e : Fin 128) :
    shapeCast S2x512x128
        (matmul dot_S1024x128_S128x128_S1024x128_1_0_0_1_n_n prec (truncf .bf16 (shapeCast S1024x128 X h1) hb)
          (truncf .bf16 W hb) (constant S1024x128 .f32 0x00000000#32)) h2 (ix3 p n e)
      = ∑ w : Fin 128, X (ix3 p n w) * W (ix2 w e) := by
  refine (unflatten_apply _ h2 p n e).trans ?_
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 (row p n) e) ((contrEquiv1 dot_S1024x128_S128x128_S1024x128_1_0_0_1_n_n 128 rfl rfl).symm k) = ix2 (row p n) k := funext fun a => Fin.ext (by
    match a with
    | ⟨0, _⟩ => exact lhs_proj_0 _ _
    | ⟨1, _⟩ => exact (lhs_proj_1 _ _).trans hk)
  have er : dot_S1024x128_S128x128_S1024x128_1_0_0_1_n_n.rhsIdx (ix2 (row p n) e) ((contrEquiv1 dot_S1024x128_S128x128_S1024x128_1_0_0_1_n_n 128 rfl rfl).symm k) = ix2 k e := funext fun a => Fin.ext (by
    match a with
    | ⟨0, _⟩ => exact (rhs_proj_0 _ _).trans hk
    | ⟨1, _⟩ => exact rhs_proj_1 _ _)
  rw [el, er, truncf_apply, truncf_apply, flatten_apply]

/-- The mask row against the node rows: entry (p, 0, f) sums over the nodes n of M (p, 0, n) · L (p, n, f). -/
theorem pool_apply (M : FVec Ideal S2x1x512 .f32) (L : FVec Ideal S2x512x128 .f32) (prec : Option ContractPrecision)
    (p : Fin 2) (f : Fin 128) :
    matmul dot_S2x1x512_S2x512x128_S2x1x128_2_1_1_2_0_0 prec M L (constant S2x1x128 .f32 0x00000000#32) (ix3 p 0 f)
      = ∑ n : Fin 512, M (ix3 p 0 n) * L (ix3 p n f) := by
  simp only [matmul]
  rw [Ideal.matmul_constant_zero_apply, ← Equiv.sum_comp (contrEquiv1 dot_S2x1x512_S2x512x128_S2x1x128_2_1_1_2_0_0 512 rfl rfl).symm]
  refine Finset.sum_congr rfl fun k _ => ?_
  have hk := contrEquiv1_symm_val dot_S2x1x512_S2x512x128_S2x1x128_2_1_1_2_0_0 512 rfl rfl k
  have el : dot_S2x1x512_S2x512x128_S2x1x128_2_1_1_2_0_0.lhsIdx (ix3 p 0 f) ((contrEquiv1 dot_S2x1x512_S2x512x128_S2x1x128_2_1_1_2_0_0 512 rfl rfl).symm k) = ix3 p 0 k := funext fun a => Fin.ext (by
    match a with
    | ⟨0, _⟩ => exact lhs_pool_0 _ _
    | ⟨1, _⟩ => exact lhs_pool_1 _ _
    | ⟨2, _⟩ => exact (lhs_pool_2 _ _).trans hk)
  have er : dot_S2x1x512_S2x512x128_S2x1x128_2_1_1_2_0_0.rhsIdx (ix3 p 0 f) ((contrEquiv1 dot_S2x1x512_S2x512x128_S2x1x128_2_1_1_2_0_0 512 rfl rfl).symm k) = ix3 p k f := funext fun a => Fin.ext (by
    match a with
    | ⟨0, _⟩ => exact rhs_pool_0 _ _
    | ⟨1, _⟩ => exact (rhs_pool_1 _ _).trans hk
    | ⟨2, _⟩ => exact rhs_pool_2 _ _)
  rw [el, er]

/-- The pooled rows through the last matrix, with the unit axis dropped before and restored after: entry (p, 0, f)
    sums over e of P (p, 0, e) · W (e, f). -/
theorem final_apply (P : FVec Ideal S2x1x128 .f32) (W : FVec Ideal S128x128 .f32) (prec : Option ContractPrecision)
    (h1 : S2x1x128.ShapeCasts S2x128) (h2 : S2x128.ShapeCasts S2x1x128)
    (hb : (FTy.bf16).bits < (FTy.f32).bits) (p : Fin 2) (f : Fin 128) :
    shapeCast S2x1x128
        (matmul dot_S2x128_S128x128_S2x128_1_0_0_1_n_n prec (truncf .bf16 (shapeCast S2x128 P h1) hb)
          (truncf .bf16 W hb) (constant S2x128 .f32 0x00000000#32)) h2 (ix3 p 0 f)
      = ∑ e : Fin 128, P (ix3 p 0 e) * W (ix2 e f) := by
  refine (addUnit_apply _ h2 p f).trans ?_
  simp only [matmul]
  rw [Ideal.matmul_constant_zero_apply, ← Equiv.sum_comp (contrEquiv1 dot_S2x128_S128x128_S2x128_1_0_0_1_n_n 128 rfl rfl).symm]
  refine Finset.sum_congr rfl fun k _ => ?_
  have hk := contrEquiv1_symm_val dot_S2x128_S128x128_S2x128_1_0_0_1_n_n 128 rfl rfl k
  have el : dot_S2x128_S128x128_S2x128_1_0_0_1_n_n.lhsIdx (ix2 p f) ((contrEquiv1 dot_S2x128_S128x128_S2x128_1_0_0_1_n_n 128 rfl rfl).symm k) = ix2 p k := funext fun a => Fin.ext (by
    match a with
    | ⟨0, _⟩ => exact lhs_final_0 _ _
    | ⟨1, _⟩ => exact (lhs_final_1 _ _).trans hk)
  have er : dot_S2x128_S128x128_S2x128_1_0_0_1_n_n.rhsIdx (ix2 p f) ((contrEquiv1 dot_S2x128_S128x128_S2x128_1_0_0_1_n_n 128 rfl rfl).symm k) = ix2 k f := funext fun a => Fin.ext (by
    match a with
    | ⟨0, _⟩ => exact (rhs_final_0 _ _).trans hk
    | ⟨1, _⟩ => exact rhs_final_1 _ _)
  rw [el, er, truncf_apply, truncf_apply, dropUnit_apply]

end Cert.KernelIdeal.KDots

end
-- ==== Proof.KernelAdj.lean ====
/-
  The two dense adjacency matrices the kernel body builds, and their products with the node rows.

  For an index block `v` of shape [2,512,16] the body forms, slot by slot, the 0/1 array [2,512,512] whose entry
  (p, n, m) says whether slot k of node n names node m, adds the sixteen of them up from zero, and scales by 1/16.
  Entry (p, n, m) of the result is therefore 1/16 times the number of slots of node n naming m, and its product with
  the rows `x` is the mean of the rows the slots name (`GnnSpec.onehot_mean`), provided every slot's word is a node.
-/
import proofs.«406225_j87170656239793_3_alg».proof.Proof.Gen.KernelIdeal.Skeleton
import proofs.«406225_j87170656239793_3_alg».proof.Proof.Spec
import proofs.«406225_j87170656239793_3_alg».proof.Proof.KernelDots
import Idealize.ShloMosaic.Lib.ValueIdx
import Idealize.ShloMosaic.Lib.Pipeline.Value
import Idealize.ShloMosaic.PureOps.Ideal.Laws

set_option maxRecDepth 16384

noncomputable section

namespace Cert.KernelIdeal.KAdj

open Idealize.ShloMosaic Idealize.ShloMosaic.ValueIdx Cert.KernelIdeal Cert.KernelIdeal.Gen
open scoped BigOperators

/-! ## Literals -/

/-- The bf16 word 0x0000 is zero. -/
theorem ofBits_bf16_zero : Ideal.ofBits .bf16 0x0000#16 = 0 := by
  simp [Ideal.ofBits, Ideal.ieee]

/-- The bf16 word 0x3D80 is 2⁻⁴ = 1/16 exactly. -/
theorem ofBits_bf16_inv16 : Ideal.ofBits .bf16 0x3D80#16 = GnnSpec.invK := by
  unfold GnnSpec.invK
  simp [Ideal.ofBits, Ideal.ieee, -EReal.coe_mul]
  norm_num

/-! ## Sixteen terms added up from zero, left to right -/

theorem sum16 {M : Type*} [AddCommMonoid M] (a : Fin 16 → M) :
    ∑ k, a k = 0 + a 0 + a 1 + a 2 + a 3 + a 4 + a 5 + a 6 + a 7 + a 8 + a 9 + a 10 + a 11 + a 12 + a 13 + a 14 + a 15 := by
  simp only [Fin.sum_univ_castSucc, Fin.sum_univ_zero]
  rfl

/-! ## One slot's column and the lane numbers, read at an index -/

/-- A slice of one slot out of the sixteen lies inside the slot axis. -/
theorem lt16_of_slices {k : Nat} (hs : S2x512x16.Slices ![0, 0, k] S2x512x1) : k < 16 := by
  have h := hs.2 ⟨2, by decide⟩
  have e : (![0, 0, k] : Fin 3 → Nat) ⟨2, by decide⟩ = k := rfl
  have e1 : S2x512x1.size ((⟨2, by decide⟩ : Fin S2x512x16.rank).cast hs.1.symm) = 1 := rfl
  have e2 : S2x512x16.size ⟨2, by decide⟩ = 16 := rfl
  rw [e, e1, e2] at h
  omega

/-- Slot k's column [2,512,1], squeezed to [2,512], expanded again and broadcast along the lanes, reads at (p, n, m)
    the index word of slot k of node n, whatever the lane m. -/
theorem slot_apply (v : IVec S2x512x16 32) (k : Nat)
    (hs : S2x512x16.Slices ![0, 0, k] S2x512x1) (h1 : S2x512x1.ShapeCasts S2x512) (h2 : S2x512.ShapeCasts S2x512x1)
    (hb : S2x512x1.Broadcasts S2x512x512) (p : Fin 2) (n m : Fin 512) :
    broadcastTo S2x512x512 (shapeCast S2x512x1 (shapeCast S2x512 (extractStridedSlice S2x512x1 ![0, 0, k] v hs) h1) h2) hb (ix3 p n m)
      = v (ix3 p n ⟨k, lt16_of_slices hs⟩) := by
  rw [shapeCast_shapeCast]
  refine (broadcastTo_apply _ hb (ix3 p n m) (ix3 p n 0) (fun a => ?_)).trans ?_
  · match a with
    | ⟨0, _⟩ => rfl
    | ⟨1, _⟩ => rfl
    | ⟨2, _⟩ => rfl
  · refine extractStridedSlice_apply _ _ hs (ix3 p n 0) _ (fun a => ?_)
    match a with
    | ⟨0, _⟩ => exact (Nat.zero_add _).symm
    | ⟨1, _⟩ => exact (Nat.zero_add _).symm
    | ⟨2, _⟩ => rfl

/-- A [1,1,512] vector broadcast over the block reads at (p, n, m) its lane m. -/
theorem lane_bcast_apply (v0 : IVec S1x1x512 32) (hb : S1x1x512.Broadcasts S2x512x512) (p : Fin 2) (n m : Fin 512) :
    broadcastTo S2x512x512 v0 hb (ix3 p n m) = v0 (ix3 0 0 m) := by
  refine broadcastTo_apply _ hb (ix3 p n m) (ix3 0 0 m) (fun a => ?_)
  match a with
  | ⟨0, _⟩ => rfl
  | ⟨1, _⟩ => rfl
  | ⟨2, _⟩ => rfl

/-- The lane numbers: lane m holds the word m. -/
theorem iota_lane (h0 : S1x1x512.Iotas .tc 32 [2]) (m : Fin 512) :
    iota .tc S1x1x512 32 [2] h0 (ix3 0 0 m) = BitVec.ofNat 32 m.val :=
  iota_single_apply .tc S1x1x512 32 2 h0 (ix3 0 0 m)

theorem cmpi_apply' {s : Shape} {w : Nat} (q : CmpIPredicate) (a b : IVec s w) (i : s.Idx) :
    cmpi q a b i = IntOp.cmpi q (a i) (b i) := rfl

/-- Two words compared for equality, the bit widened to a word and converted to a float: 1 or 0. -/
theorem onehot_val (a b : BitVec 32) :
    (FloatOps.sitofp (F := Ideal) .f32 ((IntOp.cmpi .eq a b).setWidth 32) : EReal) = if a = b then 1 else 0 := by
  by_cases h : a = b
  · subst h
    simp [IntOp.cmpi, FloatOps.sitofp]
  · have hb : (a == b) = false := by simpa using h
    simp [IntOp.cmpi, FloatOps.sitofp, hb, h]

/-- A word below 512 is the lane number m exactly when it names node m. -/
theorem eq_ofNat_iff_nodeOf {w : BitVec 32} (hw : w.toNat < 512) (m : Fin 512) :
    w = BitVec.ofNat 32 m.val ↔ GnnSpec.nodeOf w = m := by
  constructor
  · intro h
    apply Fin.ext
    rw [GnnSpec.nodeOf_val_of_lt hw, h, BitVec.toNat_ofNat]
    exact Nat.mod_eq_of_lt (by have := m.isLt; omega)
  · intro h
    apply BitVec.eq_of_toNat_eq
    rw [BitVec.toNat_ofNat, Nat.mod_eq_of_lt (by have := m.isLt; omega), ← h, GnnSpec.nodeOf_val_of_lt hw]

/-! ## The library-side adjacency and its product with the library rows -/

/-- The library-side product at (p, n, w): the mean over node n's slots of the library rows' entry w. -/
theorem aggRaw_apply (x3 : Vec Ideal S2x512x16 .i32) (x1 : Vec Ideal S2x512x128 .f32) (h0 : S1x1x512.Iotas .tc 32 [2])
    (h3 : ∀ i, (x3 i : BitVec 32).toNat < 512) (p : Fin 2) (n : Fin 512) (w : Fin 128) :
    k0_pay6 (F := Ideal) (iota .tc S1x1x512 32 [2] h0) x3
        (k0_pay4 (iota .tc S1x1x512 32 [2] h0) x3 (k0_pay2 x3) (k0_pay3 x3)) (k0_pay5 x3) x1 (ix3 p n w)
      = GnnSpec.meanNb (fun m => x1 (ix3 p m w)) (fun k => GnnSpec.nodeOf (x3 (ix3 p n k))) := by
  unfold k0_pay6 k0_pay4 k0_pay2 k0_pay3 k0_pay5
  dsimp only
  rw [KDots.bmm_apply]
  refine (Finset.sum_congr rfl fun m _ => ?_).trans (GnnSpec.onehot_mean _ _)
  refine congrArg₂ (· * ·) ?_ rfl
  have e1 : ∀ k : Fin 16, (if (x3 (ix3 p n k) : BitVec 32) = BitVec.ofNat 32 m.val then (1 : EReal) else 0)
      = if GnnSpec.nodeOf (x3 (ix3 p n k)) = m then 1 else 0 := fun k =>
    if_congr (eq_ofNat_iff_nodeOf (h3 _) m) rfl rfl
  refine Eq.trans ?_ (congrArg (· * GnnSpec.invK) (Finset.sum_congr rfl fun k _ => e1 k))
  refine Eq.trans ?_ (congrArg (· * GnnSpec.invK) (sum16 _).symm)
  simp only [mulf_apply, addf_apply, truncf_apply, sitofp_apply, extui_apply, cmpi_apply', broadcast_apply,
    slot_apply, lane_bcast_apply, iota_lane, onehot_val, Ideal.ofBits_def, ofBits_bf16_zero, ofBits_bf16_inv16]
  rw [iota_lane h0 m]
  rfl

/-! ## The node-side adjacency and its product with any rows -/

/-- The node-side adjacency (its first fifteen slots accumulated, the sixteenth added, the sum scaled by 1/16) times
    rows `Y`, at (p, n, e): the mean over node n's slots of the rows' entry e. -/
theorem nodeMean_apply (x2 : Vec Ideal S2x512x16 .i32) (Y : FVec Ideal S2x512x128 .bf16) (h0 : S1x1x512.Iotas .tc 32 [2])
    (hb : S1x1x512.Broadcasts S2x512x512) (hlt : 1 < 32) (hbits : (FTy.bf16).bits < (FTy.f32).bits)
    (prec : Option ContractPrecision)
    (h2 : ∀ i, (x2 i : BitVec 32).toNat < 512) (p : Fin 2) (n : Fin 512) (e : Fin 128) :
    matmul dot_S2x512x512_S2x512x128_S2x512x128_2_1_1_2_0_0 prec
        (mulf
          (addf
            (k0_pay13 (F := Ideal) (iota .tc S1x1x512 32 [2] h0) x2
              (k0_pay11 (iota .tc S1x1x512 32 [2] h0) x2 (k0_pay9 (iota .tc S1x1x512 32 [2] h0) x2) (k0_pay10 x2))
              (k0_pay12 x2))
            (truncf .bf16
              (sitofp .f32 (extui 32 (cmpi .eq (k0_pay14 (F := Ideal) x2) (broadcastTo S2x512x512 (iota .tc S1x1x512 32 [2] h0) hb)) hlt))
              hbits))
          (broadcast S2x512x512 (Scalar.ofBits (F := Ideal) .bf16 0x3D80#16)))
        Y (constant S2x512x128 .f32 0x00000000#32) (ix3 p n e)
      = GnnSpec.meanNb (fun m => Y (ix3 p m e)) (fun k => GnnSpec.nodeOf (x2 (ix3 p n k))) := by
  rw [KDots.bmm_apply]
  refine (Finset.sum_congr rfl fun m _ => ?_).trans (GnnSpec.onehot_mean _ _)
  refine congrArg₂ (· * ·) ?_ rfl
  have e1 : ∀ k : Fin 16, (if (x2 (ix3 p n k) : BitVec 32) = BitVec.ofNat 32 m.val then (1 : EReal) else 0)
      = if GnnSpec.nodeOf (x2 (ix3 p n k)) = m then 1 else 0 := fun k =>
    if_congr (eq_ofNat_iff_nodeOf (h2 _) m) rfl rfl
  refine Eq.trans ?_ (congrArg (· * GnnSpec.invK) (Finset.sum_congr rfl fun k _ => e1 k))
  refine Eq.trans ?_ (congrArg (· * GnnSpec.invK) (sum16 _).symm)
  unfold k0_pay13 k0_pay11 k0_pay9 k0_pay10 k0_pay12 k0_pay14
  dsimp only
  simp only [mulf_apply, addf_apply, truncf_apply, sitofp_apply, extui_apply, cmpi_apply', broadcast_apply,
    slot_apply, lane_bcast_apply, onehot_val, Ideal.ofBits_def, ofBits_bf16_zero, ofBits_bf16_inv16]
  rw [iota_lane h0 m]
  rfl

end Cert.KernelIdeal.KAdj

end
-- ==== Proof.KernelBlock.lean ====
/-
  The kernel body's value: what one grid point stores, as a function of the blocks it loads.
-/
import proofs.«406225_j87170656239793_3_alg».proof.Proof.Gen.KernelIdeal.Skeleton
import proofs.«406225_j87170656239793_3_alg».proof.Proof.Spec
import proofs.«406225_j87170656239793_3_alg».proof.Proof.KernelDots
import proofs.«406225_j87170656239793_3_alg».proof.Proof.KernelAdj
import Idealize.ShloMosaic.Lib.Pipeline.Value
import Idealize.ShloMosaic.Lib.ValueIdx

set_option maxRecDepth 16384

noncomputable section

namespace Cert.KernelIdeal.KBlock

open Idealize.ShloMosaic Idealize.ShloMosaic.ValueIdx Cert.KernelIdeal Cert.KernelIdeal.Gen
open scoped BigOperators

/-- The body's one store, as a function of the nine blocks the body loads (each loaded whole). -/
def bodyVal (x0 x1 : Vec Ideal S2x512x128 .f32) (x2 x3 : Vec Ideal S2x512x16 .i32) (x4 : Vec Ideal S2x1x512 .f32)
    (x5 x6 x7 x8 : Vec Ideal S128x128 .f32) : FVec Ideal S2x1x128 .f32 :=
  k0_pay1 (iota .tc S1x1x512 32 [2] Facts₀.iota_S1x1x512_d2_w32)
    (k0_pay7 (k0_pay6 (iota .tc S1x1x512 32 [2] Facts₀.iota_S1x1x512_d2_w32) x3
        (k0_pay4 (iota .tc S1x1x512 32 [2] Facts₀.iota_S1x1x512_d2_w32) x3 (k0_pay2 x3) (k0_pay3 x3)) (k0_pay5 x3) x1) x5)
    (k0_pay8 x0 x7)
    (k0_pay13 (iota .tc S1x1x512 32 [2] Facts₀.iota_S1x1x512_d2_w32) x2
      (k0_pay11 (iota .tc S1x1x512 32 [2] Facts₀.iota_S1x1x512_d2_w32) x2 (k0_pay9 (iota .tc S1x1x512 32 [2] Facts₀.iota_S1x1x512_d2_w32) x2) (k0_pay10 x2))
      (k0_pay12 x2))
    (k0_pay14 x2) x8 x4 x6

/-! ## The body's named quantities at an index -/

section Pieces

variable (x0 x1 : Vec Ideal S2x512x128 .f32) (x2 x3 : Vec Ideal S2x512x16 .i32) (x4 : Vec Ideal S2x1x512 .f32)
  (x5 x6 x7 x8 : Vec Ideal S128x128 .f32)

/-- The word rows projected: payload 8 at (p, n, e). -/
theorem wordProj_apply (p : Fin 2) (n : Fin 512) (e : Fin 128) :
    k0_pay8 (F := Ideal) x0 x7 (ix3 p n e)
      = GnnSpec.wordProj (fun n w => x0 (ix3 p n w)) (fun a b => x7 (ix2 a b)) n e := by
  unfold k0_pay8
  exact KDots.proj_apply _ _ _ _ _ _ p n e

/-- The projected neighbour mean of the library rows: payloads 2 to 7 at (p, n, e). -/
theorem aggLib_apply (h3 : ∀ i, (x3 i : BitVec 32).toNat < 512) (p : Fin 2) (n : Fin 512) (e : Fin 128) :
    k0_pay7 (F := Ideal)
        (k0_pay6 (iota .tc S1x1x512 32 [2] Facts₀.iota_S1x1x512_d2_w32) x3
          (k0_pay4 (iota .tc S1x1x512 32 [2] Facts₀.iota_S1x1x512_d2_w32) x3 (k0_pay2 x3) (k0_pay3 x3)) (k0_pay5 x3) x1)
        x5 (ix3 p n e)
      = GnnSpec.aggLib (fun n w => x1 (ix3 p n w)) (fun n k => GnnSpec.nodeOf (x3 (ix3 p n k))) (fun a b => x5 (ix2 a b)) n e := by
  unfold k0_pay7
  dsimp only
  refine (KDots.proj_apply _ _ _ _ _ _ p n e).trans ?_
  unfold GnnSpec.aggLib
  refine Finset.sum_congr rfl fun w _ => ?_
  rw [KAdj.aggRaw_apply x3 x1 _ h3 p n w]

end Pieces

/-- Entry (p, 0, f) of the stored block is batch element p's output row at f, of the loaded blocks' slices at p. -/
theorem bodyVal_apply (x0 x1 : Vec Ideal S2x512x128 .f32) (x2 x3 : Vec Ideal S2x512x16 .i32) (x4 : Vec Ideal S2x1x512 .f32)
    (x5 x6 x7 x8 : Vec Ideal S128x128 .f32)
    (h2 : ∀ i, (x2 i : BitVec 32).toNat < 512) (h3 : ∀ i, (x3 i : BitVec 32).toNat < 512) (p : Fin 2) (f : Fin 128) :
    bodyVal x0 x1 x2 x3 x4 x5 x6 x7 x8 (ix3 p 0 f)
      = GnnSpec.out (fun n w => x0 (ix3 p n w)) (fun n w => x1 (ix3 p n w))
          (fun n k => GnnSpec.nodeOf (x2 (ix3 p n k))) (fun n k => GnnSpec.nodeOf (x3 (ix3 p n k)))
          (fun n => x4 (ix3 p 0 n))
          (fun a b => x5 (ix2 a b)) (fun a b => x6 (ix2 a b)) (fun a b => x7 (ix2 a b)) (fun a b => x8 (ix2 a b)) f := by
  unfold bodyVal k0_pay1
  dsimp only
  rw [KDots.final_apply]
  unfold GnnSpec.out
  refine Finset.sum_congr rfl fun e _ => congrArg₂ (· * ·) ?_ rfl
  rw [KDots.pool_apply]
  unfold GnnSpec.pooled
  refine Finset.sum_congr rfl fun n _ => ?_
  rw [shapeCast_self]
  refine congrArg₂ (· * ·) rfl ?_
  -- the second round: tanh of (word projection + projected mean of the first round) + library aggregate
  unfold GnnSpec.embed2
  show Ideal.tanh _ = Ideal.tanh _
  refine congrArg Ideal.tanh ?_
  refine congrArg₂ (· + ·) (congrArg₂ (· + ·) (wordProj_apply x0 x7 p n e) ?_) (aggLib_apply x1 x3 x5 h3 p n e)
  refine (KDots.proj_apply _ _ _ _ _ _ p n e).trans ?_
  refine Finset.sum_congr rfl fun e' _ => congrArg₂ (· * ·) ?_ rfl
  refine (KAdj.nodeMean_apply x2 _ _ _ _ _ _ h2 p n e').trans ?_
  refine congrArg (fun g => GnnSpec.meanNb g _) (funext fun m => ?_)
  -- the first round at node m
  unfold GnnSpec.embed1
  show Ideal.tanh _ = Ideal.tanh _
  exact congrArg Ideal.tanh (congrArg₂ (· + ·) (wordProj_apply x0 x7 p m e') (aggLib_apply x1 x3 x5 h3 p m e'))

end Cert.KernelIdeal.KBlock

end
-- ==== Proof.KernelArray.lean ====
/-
  The kernel's result array after the run, and the run itself.
-/
import proofs.«406225_j87170656239793_3_alg».proof.Proof.Gen.KernelIdeal.Frame
import proofs.«406225_j87170656239793_3_alg».proof.Proof.KernelBlock
import Idealize.ShloMosaic.Lib.Pipeline.Value
import Idealize.ShloMosaic.Lib.ValueIdx

set_option maxRecDepth 16384

noncomputable section

namespace Cert.KernelIdeal.KArray

open Idealize.ShloMosaic Idealize.ShloMosaic.TcCoe Idealize.ShloMosaic.ValueIdx Idealize.SL.Sem
open Cert.KernelIdeal Cert.KernelIdeal.Gen

section Blocks

variable (m : (ℓ : Loc nD τ sig) → Buf (Elt Ideal) ℓ)

theorem zero3 : (![0, 0, 0] : Fin 3 → Nat) = fun _ => 0 := funext fun a => by fin_cases a <;> rfl
theorem zero2 : (![0, 0] : Fin 2 → Nat) = fun _ => 0 := funext fun a => by fin_cases a <;> rfl

/-- One store through the whole buffer, of loads through the whole buffers: the body's value of the blocks. -/
theorem out_eq_bodyVal (x0 x1 : Vec Ideal S2x512x128 .f32) (x2 x3 : Vec Ideal S2x512x16 .i32) (x4 : Vec Ideal S2x1x512 .f32)
    (x5 x6 x7 x8 : Vec Ideal S128x128 .f32) :
    out0_9 (F := Ideal) x0 x1 x2 x3 x4 x5 x6 x7 x8 = KBlock.bodyVal x0 x1 x2 x3 x4 x5 x6 x7 x8 := by
  unfold out0_9 KBlock.bodyVal
  rw [View.canon_unit_zero zero3]
  simp only [View.ld_unit_zero (S := S2x512x16) zero3, View.ld_unit_zero (S := S2x512x128) zero3,
    View.ld_unit_zero (S := S128x128) zero2, View.ld_unit_zero (S := S2x1x512) zero3]

/-- The grid has 32 points. -/
theorem pt_lt (t : Fin cfg0.N) : t.val < 32 := lt_of_lt_of_eq t.isLt N_0

/-- The batch row that point `t`'s blocks hold at their row `p`. -/
def row (t : Fin cfg0.N) (p : Fin 2) : Fin 64 := ⟨2 * t.val + p.val, by have := pt_lt t; have := p.isLt; omega⟩

/-- The index maps, decided over the grid: the batched windows sit at block `t` of the batch axis, the weight windows at block zero. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 3) = t.val ∧ win0_9.index t (1 : Fin 3) = 0 ∧ win0_9.index t (2 : Fin 3) = 0) :=
  (by decide +kernel : ∀ t : Fin grid0.N, _)

/-- Window 0's block at point `t` holds rows `2t`, `2t + 1` of the first argument. -/
theorem blk0_apply (c : Dev nD) (t : Fin cfg0.N) (p : Fin 2) (n : Fin 512) (w : Fin 128) :
    (iblk m c 0 t : Vec Ideal S2x512x128 .f32) (ix3 p n w)
      = (m ((c : Thread nD τ).loc main_arg0) : S64x512x128.Idx → EReal) (ix3 (row t p) n w) := by
  obtain ⟨⟨e0, e1, e2⟩, -⟩ := idx_facts t
  unfold iblk; rw [View.read_apply]
  show V m c main_arg0 _ = _
  rw [V_main_arg0]
  refine congrArg _ (funext fun a => Fin.ext ?_)
  match a with
  | ⟨0, _⟩ => show win0_0.index t (0 : Fin 3) * 2 + 1 * p.val = 2 * t.val + p.val; omega
  | ⟨1, _⟩ => show win0_0.index t (1 : Fin 3) * 512 + 1 * n.val = n.val; omega
  | ⟨2, _⟩ => show win0_0.index t (2 : Fin 3) * 128 + 1 * w.val = w.val; omega

/-- Window 1's block at point `t` holds rows `2t`, `2t + 1` of the third argument. -/
theorem blk1_apply (c : Dev nD) (t : Fin cfg0.N) (p : Fin 2) (n : Fin 512) (w : Fin 128) :
    (iblk m c 1 t : Vec Ideal S2x512x128 .f32) (ix3 p n w)
      = (m ((c : Thread nD τ).loc main_arg2) : S64x512x128.Idx → EReal) (ix3 (row t p) n w) := by
  obtain ⟨-, ⟨e0, e1, e2⟩, -⟩ := idx_facts t
  unfold iblk; rw [View.read_apply]
  show V m c main_arg2 _ = _
  rw [V_main_arg2]
  refine congrArg _ (funext fun a => Fin.ext ?_)
  match a with
  | ⟨0, _⟩ => show win0_1.index t (0 : Fin 3) * 2 + 1 * p.val = 2 * t.val + p.val; omega
  | ⟨1, _⟩ => show win0_1.index t (1 : Fin 3) * 512 + 1 * n.val = n.val; omega
  | ⟨2, _⟩ => show win0_1.index t (2 : Fin 3) * 128 + 1 * w.val = w.val; omega

/-- Window 2's block at point `t` holds rows `2t`, `2t + 1` of the second argument, the neighbour indices. -/
theorem blk2_apply (c : Dev nD) (t : Fin cfg0.N) (p : Fin 2) (n : Fin 512) (k : Fin 16) :
    (iblk m c 2 t : Vec Ideal S2x512x16 .i32) (ix3 p n k)
      = (m ((c : Thread nD τ).loc main_arg1) : S64x512x16.Idx → BitVec 32) (ix3 (row t p) n k) := by
  obtain ⟨-, -, ⟨e0, e1, e2⟩, -⟩ := idx_facts t
  unfold iblk; rw [View.read_apply]
  show V m c main_arg1 _ = _
  rw [V_main_arg1]
  refine congrArg _ (funext fun a => Fin.ext ?_)
  match a with
  | ⟨0, _⟩ => show win0_2.index t (0 : Fin 3) * 2 + 1 * p.val = 2 * t.val + p.val; omega
  | ⟨1, _⟩ => show win0_2.index t (1 : Fin 3) * 512 + 1 * n.val = n.val; omega
  | ⟨2, _⟩ => show win0_2.index t (2 : Fin 3) * 16 + 1 * k.val = k.val; omega

/-- Window 3's block at point `t` holds rows `2t`, `2t + 1` of the fourth argument, the library's neighbour indices. -/
theorem blk3_apply (c : Dev nD) (t : Fin cfg0.N) (p : Fin 2) (n : Fin 512) (k : Fin 16) :
    (iblk m c 3 t : Vec Ideal S2x512x16 .i32) (ix3 p n k)
      = (m ((c : Thread nD τ).loc main_arg3) : S64x512x16.Idx → BitVec 32) (ix3 (row t p) n k) := by
  obtain ⟨-, -, -, ⟨e0, e1, e2⟩, -⟩ := idx_facts t
  unfold iblk; rw [View.read_apply]
  show V m c main_arg3 _ = _
  rw [V_main_arg3]
  refine congrArg _ (funext fun a => Fin.ext ?_)
  match a with
  | ⟨0, _⟩ => show win0_3.index t (0 : Fin 3) * 2 + 1 * p.val = 2 * t.val + p.val; omega
  | ⟨1, _⟩ => show win0_3.index t (1 : Fin 3) * 512 + 1 * n.val = n.val; omega
  | ⟨2, _⟩ => show win0_3.index t (2 : Fin 3) * 16 + 1 * k.val = k.val; omega

/-- The mask as the region finds it: the fifth argument with a unit axis put in the middle. -/
theorem mask_arr (c : Dev nD) : (V m c main_v0 : S64x1x512.Idx → EReal)
    = shapeCast S64x1x512 (m ((c : Thread nD τ).loc main_arg4) : S64x512.Idx → EReal) Facts₀.shapeCasts_S64x512_S64x1x512 := by
  show StableHlo.after hostOps0 (fun b => m (c, b)) (Proc.devRef .tc main_v0) = _
  after_results
  rfl

/-- Entry `(b, 0, n)` of it is entry `(b, n)` of the argument. -/
theorem mask_arr_apply (c : Dev nD) (b : Fin 64) (n : Fin 512) :
    (V m c main_v0 : S64x1x512.Idx → EReal) (ix3 b 0 n)
      = (m ((c : Thread nD τ).loc main_arg4) : S64x512.Idx → EReal) (ix2 b n) := by
  rw [mask_arr]
  refine shapeCast_apply _ _ (ix3 b 0 n) (ix2 b n) ?_
  rw [Shape.rowMajor_val_two, Shape.rowMajor_val_three]
  show b.val * 512 + n.val = (b.val * 1 + 0) * 512 + n.val
  omega

/-- Window 4's block at point `t` holds rows `2t`, `2t + 1` of the mask. -/
theorem blk4_apply (c : Dev nD) (t : Fin cfg0.N) (p : Fin 2) (n : Fin 512) :
    (iblk m c 4 t : Vec Ideal S2x1x512 .f32) (ix3 p 0 n)
      = (m ((c : Thread nD τ).loc main_arg4) : S64x512.Idx → EReal) (ix2 (row t p) n) := by
  obtain ⟨-, -, -, -, ⟨e0, e1, e2⟩, -⟩ := idx_facts t
  refine Eq.trans ?_ (mask_arr_apply m c (row t p) n)
  unfold iblk; rw [View.read_apply]
  show V m c main_v0 _ = V m c main_v0 _
  refine congrArg _ (funext fun a => Fin.ext ?_)
  match a with
  | ⟨0, _⟩ => show win0_4.index t (0 : Fin 3) * 2 + 1 * p.val = 2 * t.val + p.val; omega
  | ⟨1, _⟩ => show win0_4.index t (1 : Fin 3) * 1 + 1 * 0 = 0; omega
  | ⟨2, _⟩ => show win0_4.index t (2 : Fin 3) * 512 + 1 * n.val = n.val; omega

/-- Windows 5 to 8 hold their whole arrays at every point. -/
theorem blk5_apply (c : Dev nD) (t : Fin cfg0.N) (a b : Fin 128) :
    (iblk m c 5 t : Vec Ideal S128x128 .f32) (ix2 a b)
      = (m ((c : Thread nD τ).loc main_arg5) : S128x128.Idx → EReal) (ix2 a b) := by
  obtain ⟨-, -, -, -, -, ⟨e0, e1⟩, -⟩ := idx_facts t
  unfold iblk; rw [View.read_apply]
  show V m c main_arg5 _ = _
  rw [V_main_arg5]
  refine congrArg _ (funext fun d => Fin.ext ?_)
  match d with
  | ⟨0, _⟩ => show win0_5.index t (0 : Fin 2) * 128 + 1 * a.val = a.val; omega
  | ⟨1, _⟩ => show win0_5.index t (1 : Fin 2) * 128 + 1 * b.val = b.val; omega

theorem blk6_apply (c : Dev nD) (t : Fin cfg0.N) (a b : Fin 128) :
    (iblk m c 6 t : Vec Ideal S128x128 .f32) (ix2 a b)
      = (m ((c : Thread nD τ).loc main_arg6) : S128x128.Idx → EReal) (ix2 a b) := by
  obtain ⟨-, -, -, -, -, -, ⟨e0, e1⟩, -⟩ := idx_facts t
  unfold iblk; rw [View.read_apply]
  show V m c main_arg6 _ = _
  rw [V_main_arg6]
  refine congrArg _ (funext fun d => Fin.ext ?_)
  match d with
  | ⟨0, _⟩ => show win0_6.index t (0 : Fin 2) * 128 + 1 * a.val = a.val; omega
  | ⟨1, _⟩ => show win0_6.index t (1 : Fin 2) * 128 + 1 * b.val = b.val; omega

theorem blk7_apply (c : Dev nD) (t : Fin cfg0.N) (a b : Fin 128) :
    (iblk m c 7 t : Vec Ideal S128x128 .f32) (ix2 a b)
      = (m ((c : Thread nD τ).loc main_arg7) : S128x128.Idx → EReal) (ix2 a b) := by
  obtain ⟨-, -, -, -, -, -, -, ⟨e0, e1⟩, -⟩ := idx_facts t
  unfold iblk; rw [View.read_apply]
  show V m c main_arg7 _ = _
  rw [V_main_arg7]
  refine congrArg _ (funext fun d => Fin.ext ?_)
  match d with
  | ⟨0, _⟩ => show win0_7.index t (0 : Fin 2) * 128 + 1 * a.val = a.val; omega
  | ⟨1, _⟩ => show win0_7.index t (1 : Fin 2) * 128 + 1 * b.val = b.val; omega

theorem blk8_apply (c : Dev nD) (t : Fin cfg0.N) (a b : Fin 128) :
    (iblk m c 8 t : Vec Ideal S128x128 .f32) (ix2 a b)
      = (m ((c : Thread nD τ).loc main_arg8) : S128x128.Idx → EReal) (ix2 a b) := by
  obtain ⟨-, -, -, -, -, -, -, -, ⟨e0, e1⟩, -⟩ := idx_facts t
  unfold iblk; rw [View.read_apply]
  show V m c main_arg8 _ = _
  rw [V_main_arg8]
  refine congrArg _ (funext fun d => Fin.ext ?_)
  match d with
  | ⟨0, _⟩ => show win0_8.index t (0 : Fin 2) * 128 + 1 * a.val = a.val; omega
  | ⟨1, _⟩ => show win0_8.index t (1 : Fin 2) * 128 + 1 * b.val = b.val; omega

end Blocks

section Array

variable (m : (ℓ : Loc nD τ sig) → Buf (Elt Ideal) ℓ)

/-- One batch element's output row depends on its nine arguments entry by entry. -/
theorem out_congr {word word' lib lib' : Fin 512 → Fin 128 → EReal} {nb nb' nbl nbl' : Fin 512 → Fin 16 → Fin 512}
    {mask mask' : Fin 512 → EReal} {wt wt' wt2 wt2' e1 e1' e2 e2' : Fin 128 → Fin 128 → EReal}
    (h0 : ∀ n w, word n w = word' n w) (h1 : ∀ n w, lib n w = lib' n w) (h2 : ∀ n k, nb n k = nb' n k)
    (h3 : ∀ n k, nbl n k = nbl' n k) (h4 : ∀ n, mask n = mask' n) (h5 : ∀ a b, wt a b = wt' a b)
    (h6 : ∀ a b, wt2 a b = wt2' a b) (h7 : ∀ a b, e1 a b = e1' a b) (h8 : ∀ a b, e2 a b = e2' a b) (f : Fin 128) :
    GnnSpec.out word lib nb nbl mask wt wt2 e1 e2 f = GnnSpec.out word' lib' nb' nbl' mask' wt' wt2' e1' e2' f := by
  obtain rfl : word = word' := funext fun n => funext fun w => h0 n w
  obtain rfl : lib = lib' := funext fun n => funext fun w => h1 n w
  obtain rfl : nb = nb' := funext fun n => funext fun k => h2 n k
  obtain rfl : nbl = nbl' := funext fun n => funext fun k => h3 n k
  obtain rfl : mask = mask' := funext fun n => h4 n
  obtain rfl : wt = wt' := funext fun a => funext fun b => h5 a b
  obtain rfl : wt2 = wt2' := funext fun a => funext fun b => h6 a b
  obtain rfl : e1 = e1' := funext fun a => funext fun b => h7 a b
  obtain rfl : e2 = e2' := funext fun a => funext fun b => h8 a b
  rfl

/-- The region's result array [64, 1, 128] as one function of the arguments: entry `(b, 0, f)` is batch element `b`'s output row at `f`. -/
def Garr (c : Dev nD) : S64x1x128.Idx → EReal := fun j =>
  GnnSpec.G (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (ix2 (j 0) (j 2))

/-- What point `t` stores at `(p, 0, f)`: the result array at row `2t + p`. -/
theorem blockVal_apply (c : Dev nD)
    (h1 : ∀ i, (m ((c : Thread nD τ).loc main_arg1) i : BitVec 32).toNat < 512)
    (h3 : ∀ i, (m ((c : Thread nD τ).loc main_arg3) i : BitVec 32).toNat < 512)
    (t : Fin cfg0.N) (p : Fin 2) (f : Fin 128) :
    KBlock.bodyVal (iblk m c 0 t) (iblk m c 1 t) (iblk m c 2 t) (iblk m c 3 t) (iblk m c 4 t) (iblk m c 5 t)
        (iblk m c 6 t) (iblk m c 7 t) (iblk m c 8 t) (ix3 p 0 f)
      = Garr m c (ix3 (row t p) 0 f) := by
  refine (KBlock.bodyVal_apply (iblk m c 0 t) (iblk m c 1 t) (iblk m c 2 t) (iblk m c 3 t) (iblk m c 4 t) (iblk m c 5 t)
        (iblk m c 6 t) (iblk m c 7 t) (iblk m c 8 t) ?_ ?_ p f).trans ?_
  · intro i
    have e : (iblk m c 2 t : Vec Ideal S2x512x16 .i32) i = _ :=
      (congrArg _ (eq_ix3 i)).trans (blk2_apply m c t (i 0) (i 1) (i 2))
    exact lt_of_eq_of_lt (congrArg BitVec.toNat e) (h1 _)
  · intro i
    have e : (iblk m c 3 t : Vec Ideal S2x512x16 .i32) i = _ :=
      (congrArg _ (eq_ix3 i)).trans (blk3_apply m c t (i 0) (i 1) (i 2))
    exact lt_of_eq_of_lt (congrArg BitVec.toNat e) (h3 _)
  · unfold Garr GnnSpec.G
    exact out_congr (fun n w => blk0_apply m c t p n w) (fun n w => blk1_apply m c t p n w)
      (fun n k => congrArg GnnSpec.nodeOf (blk2_apply m c t p n k))
      (fun n k => congrArg GnnSpec.nodeOf (blk3_apply m c t p n k))
      (fun n => blk4_apply m c t p n) (fun a b => blk5_apply m c t a b) (fun a b => blk6_apply m c t a b)
      (fun a b => blk7_apply m c t a b) (fun a b => blk8_apply m c t a b) f

end Array

section Run

variable (m : (ℓ : Loc nD τ sig) → Buf (Elt Ideal) ℓ)

/-- What point `t` stores, entry by entry, is the result array read through the point's block of the output window. -/
theorem stored_apply (c : Dev nD)
    (h1 : ∀ i, (m ((c : Thread nD τ).loc main_arg1) i : BitVec 32).toNat < 512)
    (h3 : ∀ i, (m ((c : Thread nD τ).loc main_arg3) i : BitVec 32).toNat < 512)
    (t : Fin cfg0.N) (y : S2x1x128.Idx) :
    KBlock.bodyVal (iblk m c 0 t) (iblk m c 1 t) (iblk m c 2 t) (iblk m c 3 t) (iblk m c 4 t) (iblk m c 5 t)
        (iblk m c 6 t) (iblk m c 7 t) (iblk m c 8 t) y
      = Garr m c (((cfg0.win 9).blk t).view.emb y) := by
  obtain ⟨-, -, -, -, -, -, -, -, -, ⟨e0, e1, e2⟩⟩ := idx_facts t
  obtain ⟨p, z, f, rfl⟩ : ∃ p z f, y = ix3 p z f := ⟨y 0, y 1, y 2, eq_ix3 y⟩
  obtain rfl : z = 0 := Subsingleton.elim _ _
  refine (blockVal_apply m c h1 h3 t p f).trans (congrArg (Garr m c) (funext fun a => Fin.ext ?_))
  match a with
  | ⟨0, _⟩ => show 2 * t.val + p.val = win0_9.index t (0 : Fin 3) * 2 + 1 * p.val; omega
  | ⟨1, _⟩ => show 0 = win0_9.index t (1 : Fin 3) * 1 + 1 * 0; omega
  | ⟨2, _⟩ => show f.val = win0_9.index t (2 : Fin 3) * 128 + 1 * f.val; omega

/-- WHAT POINT `t` WRITES BACK is block `t` of the result array. -/
theorem flushed_eq (c : Dev nD)
    (h1 : ∀ i, (m ((c : Thread nD τ).loc main_arg1) i : BitVec 32).toNat < 512)
    (h3 : ∀ i, (m ((c : Thread nD τ).loc main_arg3) i : BitVec 32).toNat < 512)
    (t : Fin cfg0.N) :
    (dats m 0 c).flushed 9 t = ((cfg0.win 9).blk t).view.read (Elt Ideal) (Garr m c) := by
  show (cfg0.win 9).cut (grid0.coords t) ((dats m 0 c).after 9 t) = _
  rw [after0_9, out_eq_bodyVal]
  funext y
  exact stored_apply m c h1 h3 t y

/-- An index of the result array is in point `t`'s block iff each coordinate is in the block's range on its axis. -/
theorem mem_blk (t : Fin cfg0.N) (i : S64x1x128.Idx) :
    i ∈ ((cfg0.win 9).blk t).view.set ↔ ∀ a : Fin 3, win0_9.index t a * S2x1x128.size a ≤ (i a).val ∧ (i a).val < win0_9.index t a * S2x1x128.size a + S2x1x128.size a := by
  show i ∈ ((View.whole main_v1).slice (win0_9.rect t)).set ↔ _
  rw [View.set_slice_whole, Rect.mem_set_unit]
  exact Iff.rfl

/-- Row `r` of the result array is in the block of point `r / 2`. -/
theorem cover (i : S64x1x128.Idx) :
    ∃ t : Fin cfg0.N, (cfg0.win 9).flush t = true ∧ i ∈ ((cfg0.win 9).blk t).view.set := by
  have hi0 : (i 0).val < 64 := (i 0).isLt
  have hi1 : (i 1).val < 1 := (i 1).isLt
  have hi2 : (i 2).val < 128 := (i 2).isLt
  obtain ⟨t, ht⟩ : ∃ t : Fin cfg0.N, t.val = (i 0).val / 2 :=
    ⟨⟨(i 0).val / 2, by rw [show cfg0.N = 32 from N_0]; omega⟩, rfl⟩
  obtain ⟨-, -, -, -, -, -, -, -, -, ⟨e0, e1, e2⟩⟩ := idx_facts t
  refine ⟨t, flush0_9 t, ?_⟩
  rw [mem_blk]
  intro a
  match a with
  | ⟨0, _⟩ => show win0_9.index t (0 : Fin 3) * 2 ≤ (i 0).val ∧ (i 0).val < win0_9.index t (0 : Fin 3) * 2 + 2; omega
  | ⟨1, _⟩ => show win0_9.index t (1 : Fin 3) * 1 ≤ (i 1).val ∧ (i 1).val < win0_9.index t (1 : Fin 3) * 1 + 1; omega
  | ⟨2, _⟩ => show win0_9.index t (2 : Fin 3) * 128 ≤ (i 2).val ∧ (i 2).val < win0_9.index t (2 : Fin 3) * 128 + 128; omega

/-- THE REGION'S RESULT ARRAY after the run. -/
theorem final (c : Dev nD)
    (h1 : ∀ i, (m ((c : Thread nD τ).loc main_arg1) i : BitVec 32).toNat < 512)
    (h3 : ∀ i, (m ((c : Thread nD τ).loc main_arg3) i : BitVec 32).toNat < 512) :
    (dats m 0 c).arrAt 9 cfg0.N = Garr m c :=
  (dats m 0 c).arrAt_eq_of_cover 9 (Garr m c) (fun t _ => flushed_eq m c h1 h3 t) cover

/-- Dropping the unit axis of a [64, 1, 128] array: entry `(b, f)` of the result is entry `(b, 0, f)`. -/
theorem dropUnit_eq (X : S64x1x128.Idx → EReal) :
    shapeCast S64x128 X Facts₀.shapeCasts_S64x1x128_S64x128 = fun i => X (ix3 (i 0) 0 (i 1)) := by
  funext i
  refine shapeCast_apply _ _ i (ix3 (i 0) 0 (i 1)) ?_
  rw [Shape.rowMajor_val_two, Shape.rowMajor_val_three]
  show ((i 0).val * 1 + 0) * 128 + (i 1).val = (i 0).val * 128 + (i 1).val
  omega

/-- The region's result array read at `(b, 0, f)` is the result function at `(b, f)`. -/
theorem G_eq (c : Dev nD) : (fun i : S64x128.Idx => Garr m c (ix3 (i 0) 0 (i 1)))
    = GnnSpec.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) := by
  funext i
  unfold Garr
  exact congrArg _ (eq_ix2 i).symm

/-- THE PROGRAM'S RESULT: the region's result array with its unit axis dropped. -/
theorem result_eq (c : Dev nD)
    (h1 : ∀ i, (m ((c : Thread nD τ).loc main_arg1) i : BitVec 32).toNat < 512)
    (h3 : ∀ i, (m ((c : Thread nD τ).loc main_arg3) i : BitVec 32).toNat < 512) :
    Pipeline.afterTail₀ cfgs (dats m) 0 (V0 m) [hostOps1] c main_v2
      = GnnSpec.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) := by
  unfold Pipeline.afterTail₀
  show StableHlo.after hostOps1 _ (Proc.devRef .tc main_v2) = _
  after_results
  refine (dropUnit_eq _).trans (Eq.trans ?_ (G_eq m c))
  have e := (Pipeline.withArrays_arr spec0 launch0.win.arr_inj c (V0 m c) (fun w => (dats m 0 c).arrAt w cfg0.N) 9).trans
    (final m c h1 h3)
  funext i
  exact congrFun e _

end Run

/-- With every neighbour index in range, every weakly fair execution of the kernel program terminates with the
    result array at `GnnSpec.G` of the argument arrays, and the arguments unchanged. -/
theorem kernel_run (m : (ℓ : Loc nD τ sig) → Buf (Elt Ideal) ℓ) (ρ : Dev nD → PrngReg)
    (h1 : ∀ (c : Dev nD) i, (m ((c.tc : Thread nD τ).loc main_arg1) i : BitVec 32).toNat < 512)
    (h3 : ∀ (c : Dev nD) i, (m ((c.tc : Thread nD τ).loc main_arg3) i : BitVec 32).toNat < 512) :
    θ_run (defs (F := Ideal)) (onTc (τ := τ) (main (F := Ideal))) ⟨m, fun _ => 0, ρ⟩ (fun r => ∀ c : Dev nD,
      r.2.mem ((c.tc : Thread nD τ).loc main_v2)
        = GnnSpec.G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  exact (θ_run defs _ _).mono (fun r h c =>
    ⟨((h c).2 main_v2 (Pipeline.mem_restRefs_of main_v2 (by decide) (by decide))).trans (result_eq m c (h1 c) (h3 c)),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

end Cert.KernelIdeal.KArray

end
-- ==== Proof.RefValue.lean ====
/-
  The reference program's result, read operation by operation, is the specification.

  The reference gathers, for every node, the rows its sixteen neighbour words name, sums them and divides by
  sixteen; it does so for the library rows and, in each of two rounds, for the node embeddings. With every word
  below 512 the wrap of negative words and the clamp of the gather are both the identity, so a gathered row is the
  row of the node the word names. The first round gathers from an all-zero array and adds nothing. What is left is
  the specification's chain: the projected neighbour mean of the library rows, the projected words, the two tanh
  rounds, the masked sum over the nodes and the last projection.
-/
import proofs.«406225_j87170656239793_3_alg».proof.Proof.Gen.ReferenceIdeal.Read
import proofs.«406225_j87170656239793_3_alg».proof.Proof.Spec
import Idealize.ShloMosaic.Lib.ValueIdx

noncomputable section

namespace Cert.ReferenceIdeal.RefValue

open Idealize.ShloMosaic Idealize.ShloMosaic.ValueIdx Cert.ReferenceIdeal Cert.ReferenceIdeal.Gen
open scoped BigOperators

/-! ## Words and constants -/

/-- The f32 word of sixteen denotes the real number sixteen. -/
theorem ofBits_sixteen : Ideal.ofBits .f32 0x41800000#32 = ((16 : ℝ) : EReal) := by
  simp [Ideal.ofBits, Ideal.ieee, -EReal.coe_mul]; norm_num

/-- A word below 512 is not negative read signed, so the wrap of a negative index (add 512 when below zero)
    leaves it alone. -/
theorem wrap_eq {w : BitVec 32} (h : w.toNat < 512) :
    Scalar.select (IntOp.cmpi .slt w 0#32) (IntOp.addi w 512#32) w = w := by
  have hlt : w.slt 0#32 = false := by
    simp only [BitVec.slt, BitVec.toInt_zero, decide_eq_false_iff_not, Int.not_lt]
    rw [BitVec.toInt_eq_toNat_of_lt (by omega)]; omega
  show (if BitVec.ofBool (w.slt 0#32) = 1 then _ else _) = _
  rw [hlt]; rfl

/-! ## The gather of rows, read at an index

Operand `[64, 512, 128]`, start indices `[64, 512, 16, 1]`, result `[64, 512, 16, 128]`: axis 0 of the operand is a
batching axis paired with axis 0 of the start indices, axis 1 is collapsed and takes the start index, axis 2 is the
one offset axis. Result element `(b, n, k, d)` is the operand at batch `b`, at the row the word `idx (b, n, k, 0)`
names (read signed and clamped into `[0, 511]`: for a word below 512, the word's value), and at column `d`. -/

local notation "REC" => gather_S64x512x128_S64x512x16x1_S64x512x16x128_3_1_0_0_1_3_11128

theorem gather_apply {α : Type} (x : S64x512x128.Idx → α) (idx : IVec S64x512x16x1 32)
    (b : Fin 64) (n : Fin 512) (k : Fin 16) (d : Fin 128) (h : (idx (ix4 b n k (0 : Fin 1))).toNat < 512) :
    Host.gather REC x idx (ix4 b n k d) = x (ix3 b (GnnSpec.nodeOf (idx (ix4 b n k (0 : Fin 1)))) d) := by
  unfold Host.gather
  congr 1
  funext a
  refine Fin.ext ?_
  match a with
  | ⟨0, _⟩ =>
    show GatherDims.start REC (ix4 b n k d) idx 0 + GatherDims.batchCoord REC (ix4 b n k d) 0 + GatherDims.offCoord REC (ix4 b n k d) 0 = b.val
    rw [GatherDims.start_batching _ _ _ _ (by decide), GatherDims.offCoord_eq_zero _ _ _ (by decide)]
    simp only [Nat.zero_add, Nat.add_zero]
    unfold GatherDims.batchCoord
    rw [dif_pos (show (0 : Fin S64x512x128.rank) ∈ (GatherDims.operandBatchingDims REC) by decide)]
    rfl
  | ⟨1, _⟩ =>
    show GatherDims.start REC (ix4 b n k d) idx 1 + GatherDims.batchCoord REC (ix4 b n k d) 1 + GatherDims.offCoord REC (ix4 b n k d) 1
      = (GnnSpec.nodeOf (idx (ix4 b n k (0 : Fin 1)))).val
    rw [GatherDims.batchCoord_eq_zero _ _ _ (by decide), GatherDims.offCoord_eq_zero _ _ _ (by decide)]
    simp only [Nat.add_zero]
    unfold GatherDims.start
    rw [dif_pos (show (1 : Fin S64x512x128.rank) ∈ (GatherDims.startIndexMap REC) by decide)]
    have hsi : GatherDims.siIdx REC (ix4 b n k d) ⟨List.idxOf (1 : Fin S64x512x128.rank) (GatherDims.startIndexMap REC),
        List.idxOf_lt_length_iff.2 (by decide)⟩ = ix4 b n k (0 : Fin 1) := by
      funext c; refine Fin.ext ?_
      match c with
      | ⟨0, _⟩ => rfl
      | ⟨1, _⟩ => rfl
      | ⟨2, _⟩ => rfl
      | ⟨3, _⟩ => rfl
    rw [hsi, GnnSpec.nodeOf_val_of_lt h, BitVec.toInt_eq_toNat_of_lt (by omega)]
    show min (Int.toNat ((idx (ix4 b n k (0 : Fin 1))).toNat : Int)) (512 - 1) = _
    omega
  | ⟨2, _⟩ =>
    show GatherDims.start REC (ix4 b n k d) idx 2 + GatherDims.batchCoord REC (ix4 b n k d) 2 + GatherDims.offCoord REC (ix4 b n k d) 2 = d.val
    rw [GatherDims.batchCoord_eq_zero _ _ _ (by decide)]
    unfold GatherDims.start
    rw [dif_neg (show ¬ (2 : Fin S64x512x128.rank) ∈ (GatherDims.startIndexMap REC) by decide)]
    unfold GatherDims.offCoord
    rw [dif_pos (show (2 : Fin S64x512x128.rank) ∈ (GatherDims.sKept REC) by decide)]
    simp only [Nat.zero_add, Nat.add_zero]
    rfl

/-! ## The neighbour index arrays

The three index pipelines of the program (one for the library's neighbours, one per round for the nodes') are the
same function of their argument: compare with zero, add 512, select, append a unit axis. -/

/-- The wrapped index array as start indices holds at `(b, n, k, 0)` the word `x (b, n, k)` when that word is below 512. -/
theorem v18_at (x : (⟨S64x512x16, .i32⟩ : BufTy).Contents (Elt Ideal)) (b : Fin 64) (n : Fin 512) (k : Fin 16)
    (h : (x (ix3 b n k) : BitVec 32).toNat < 512) :
    Read.val_main_v18 (F := Ideal) x (ix4 b n k (0 : Fin 1)) = x (ix3 b n k) := by
  have e : Read.idx_main_v18 (ix4 b n k (0 : Fin 1)) = ix3 b n k :=
    funext fun a => Fin.ext (by match a with | ⟨0, _⟩ => rfl | ⟨1, _⟩ => rfl | ⟨2, _⟩ => rfl)
  rw [Read.val_main_v18_apply, e, Read.val_main_v17_apply, Read.val_main_v14_apply, Read.val_main_v16_apply,
    Read.val_main_v13_apply, Read.val_main_v15_apply, Read.val_main_c_3_apply, Read.val_main_c_4_apply]
  exact wrap_eq h

theorem v5_eq_v18 (x : (⟨S64x512x16, .i32⟩ : BufTy).Contents (Elt Ideal)) : Read.val_main_v5 (F := Ideal) x = Read.val_main_v18 (F := Ideal) x := rfl
theorem v32_eq_v18 (x : (⟨S64x512x16, .i32⟩ : BufTy).Contents (Elt Ideal)) : Read.val_main_v32 (F := Ideal) x = Read.val_main_v18 (F := Ideal) x := rfl

/-! ## The mean of gathered rows -/

/-- Zero plus the sum over the sixteen slots of the gathered rows' column `w`, divided by sixteen, is the mean of
    that column over the named nodes. The division by the real sixteen is the product with its reciprocal on every
    extended real, so nothing is asked of the summands. -/
theorem mean_gather (y : S64x512x128.Idx → EReal) (idx : IVec S64x512x16x1 32) (b : Fin 64) (n : Fin 512) (w : Fin 128)
    (j : Fin 16 → BitVec 32) (hj : ∀ k, idx (ix4 b n k (0 : Fin 1)) = j k) (h : ∀ k, (j k).toNat < 512) :
    Ideal.div (Ideal.ofBits .f32 0x00000000#32 + ∑ k : Fin 16, Host.gather REC y idx (ix4 b n k w))
        (Ideal.ofBits .f32 0x41800000#32)
      = GnnSpec.meanNb (fun m => y (ix3 b m w)) (fun k => GnnSpec.nodeOf (j k)) := by
  rw [Ideal.ofBits_zero_f32, zero_add, ofBits_sixteen, Ideal.div_coe (by norm_num : (16 : ℝ) ≠ 0)]
  unfold GnnSpec.meanNb GnnSpec.invK
  congr 1
  refine Finset.sum_congr rfl fun k _ => ?_
  rw [gather_apply y idx b n k w (by rw [hj k]; exact h k), hj k]

/-! ## Batch element `b`'s arrays -/

/-- Batch element `b`'s rows of a `[64, 512, 128]` array. -/
abbrev rows (x : (⟨S64x512x128, .f32⟩ : BufTy).Contents (Elt Ideal)) (b : Fin 64) : Fin 512 → Fin 128 → EReal := fun n w => x (ix3 b n w)
/-- Batch element `b`'s neighbour nodes. -/
abbrev nbrs (x : (⟨S64x512x16, .i32⟩ : BufTy).Contents (Elt Ideal)) (b : Fin 64) : Fin 512 → Fin 16 → Fin 512 := fun n k => GnnSpec.nodeOf (x (ix3 b n k))
/-- A `[128, 128]` array as a function of its two coordinates. -/
abbrev mat (x : (⟨S128x128, .f32⟩ : BufTy).Contents (Elt Ideal)) : Fin 128 → Fin 128 → EReal := fun a c => x (ix2 a c)

section Stages

variable (x0 : (⟨S64x512x128, .f32⟩ : BufTy).Contents (Elt Ideal)) (x1 : (⟨S64x512x16, .i32⟩ : BufTy).Contents (Elt Ideal)) (x2 : (⟨S64x512x128, .f32⟩ : BufTy).Contents (Elt Ideal)) (x3 : (⟨S64x512x16, .i32⟩ : BufTy).Contents (Elt Ideal)) (x4 : (⟨S64x512, .f32⟩ : BufTy).Contents (Elt Ideal)) (x5 x6 x7 x8 : (⟨S128x128, .f32⟩ : BufTy).Contents (Elt Ideal))

/-! ## The library side -/

/-- The neighbour mean of the library rows. -/
theorem v9_eq (h3 : ∀ i, (x3 i : BitVec 32).toNat < 512) (b : Fin 64) (n : Fin 512) (w : Fin 128) :
    Read.val_main_v9 (F := Ideal) x2 x3 (ix3 b n w) = GnnSpec.meanNb (fun m => rows x2 b m w) (nbrs x3 b n) := by
  have e : ∀ k : Fin 16, Read.idx_main_v7 (ix3 b n w) k = ix4 b n k w := fun k =>
    funext fun a => Fin.ext (by match a with | ⟨0, _⟩ => rfl | ⟨1, _⟩ => rfl | ⟨2, _⟩ => rfl | ⟨3, _⟩ => rfl)
  rw [Read.val_main_v9_apply, Ideal.hostDivf_def, Read.val_main_v7_apply, Read.val_main_cst_apply, Read.val_main_v8_apply,
    Read.val_main_cst_1_apply, Ideal.ofBits_def, Ideal.ofBits_def]
  simp only [e]
  unfold Read.val_main_v6
  rw [v5_eq_v18]
  exact mean_gather x2 (Read.val_main_v18 (F := Ideal) x3) b n w (fun k => x3 (ix3 b n k))
    (fun k => v18_at x3 b n k (h3 _)) (fun k => h3 _)

/-- The projected neighbour mean of the library rows. -/
theorem v10_eq (h3 : ∀ i, (x3 i : BitVec 32).toNat < 512) (b : Fin 64) (n : Fin 512) (e : Fin 128) :
    Read.val_main_v10 (F := Ideal) x2 x3 x5 (ix3 b n e) = GnnSpec.aggLib (rows x2 b) (nbrs x3 b) (mat x5) n e := by
  rw [Read.val_main_v10_apply]
  unfold GnnSpec.aggLib
  refine Finset.sum_congr rfl fun w _ => ?_
  have el : Read.lidx_main_v10 (ix3 b n e) w = ix3 b n w := funext fun a => Fin.ext (by match a with | ⟨0, _⟩ => rfl | ⟨1, _⟩ => rfl | ⟨2, _⟩ => rfl)
  have er : Read.ridx_main_v10 (ix3 b n e) w = ix2 w e := funext fun a => Fin.ext (by match a with | ⟨0, _⟩ => rfl | ⟨1, _⟩ => rfl)
  rw [el, er, v9_eq x2 x3 h3]

/-! ## The projected words -/

theorem v11_eq (b : Fin 64) (n : Fin 512) (e : Fin 128) :
    Read.val_main_v11 (F := Ideal) x0 x7 (ix3 b n e) = GnnSpec.wordProj (rows x0 b) (mat x7) n e := by
  rw [Read.val_main_v11_apply]
  unfold GnnSpec.wordProj
  refine Finset.sum_congr rfl fun w _ => ?_
  have el : Read.lidx_main_v11 (ix3 b n e) w = ix3 b n w := funext fun a => Fin.ext (by match a with | ⟨0, _⟩ => rfl | ⟨1, _⟩ => rfl | ⟨2, _⟩ => rfl)
  have er : Read.ridx_main_v11 (ix3 b n e) w = ix2 w e := funext fun a => Fin.ext (by match a with | ⟨0, _⟩ => rfl | ⟨1, _⟩ => rfl)
  rw [el, er]

/-! ## Round one: the aggregate of the all-zero start is zero -/

theorem v22_eq (i : S64x512x128.Idx) : Read.val_main_v22 (F := Ideal) x1 i = 0 := by
  have hz : ∀ j, Read.val_main_v19 (F := Ideal) x1 j = 0 := fun j => by
    unfold Read.val_main_v19 Host.gather
    rw [Read.val_main_v12_apply, Read.val_main_cst_2_apply, Ideal.ofBits_def, Ideal.ofBits_zero_f32]
  rw [Read.val_main_v22_apply, Ideal.hostDivf_def, Read.val_main_v20_apply, Read.val_main_cst_5_apply, Read.val_main_v21_apply,
    Read.val_main_cst_6_apply, Ideal.ofBits_def, Ideal.ofBits_def, Ideal.ofBits_zero_f32, ofBits_sixteen,
    Ideal.div_coe (by norm_num : (16 : ℝ) ≠ 0)]
  simp only [hz, Finset.sum_const_zero, add_zero, zero_mul]

theorem v23_eq (i : S64x512x128.Idx) : Read.val_main_v23 (F := Ideal) x1 x8 i = 0 := by
  rw [Read.val_main_v23_apply]
  exact Finset.sum_eq_zero fun k _ => by rw [v22_eq, zero_mul]

/-- The embedding after the first round. -/
theorem v26_eq (h3 : ∀ i, (x3 i : BitVec 32).toNat < 512) (b : Fin 64) (n : Fin 512) (e : Fin 128) :
    Read.val_main_v26 (F := Ideal) x0 x1 x2 x3 x5 x7 x8 (ix3 b n e)
      = GnnSpec.embed1 (rows x0 b) (rows x2 b) (nbrs x3 b) (mat x5) (mat x7) n e := by
  rw [Read.val_main_v26_apply, Ideal.hostUnary_tanh_def, Read.val_main_v25_apply, Ideal.addf_def, Read.val_main_v24_apply,
    Ideal.addf_def, v23_eq, add_zero, v11_eq, v10_eq x2 x3 x5 h3]
  rfl

/-! ## Round two -/

/-- The neighbour mean of the first round's embeddings. -/
theorem v36_eq (h1 : ∀ i, (x1 i : BitVec 32).toNat < 512) (h3 : ∀ i, (x3 i : BitVec 32).toNat < 512)
    (b : Fin 64) (n : Fin 512) (e : Fin 128) :
    Read.val_main_v36 (F := Ideal) x0 x1 x2 x3 x5 x7 x8 (ix3 b n e)
      = GnnSpec.meanNb (fun m => GnnSpec.embed1 (rows x0 b) (rows x2 b) (nbrs x3 b) (mat x5) (mat x7) m e) (nbrs x1 b n) := by
  have e34 : ∀ k : Fin 16, Read.idx_main_v34 (ix3 b n e) k = ix4 b n k e := fun k =>
    funext fun a => Fin.ext (by match a with | ⟨0, _⟩ => rfl | ⟨1, _⟩ => rfl | ⟨2, _⟩ => rfl | ⟨3, _⟩ => rfl)
  rw [Read.val_main_v36_apply, Ideal.hostDivf_def, Read.val_main_v34_apply, Read.val_main_cst_9_apply, Read.val_main_v35_apply,
    Read.val_main_cst_10_apply, Ideal.ofBits_def, Ideal.ofBits_def]
  simp only [e34]
  unfold Read.val_main_v33
  rw [v32_eq_v18, mean_gather (Read.val_main_v26 (F := Ideal) x0 x1 x2 x3 x5 x7 x8) (Read.val_main_v18 (F := Ideal) x1) b n e
    (fun k => x1 (ix3 b n k)) (fun k => v18_at x1 b n k (h1 _)) (fun k => h1 _)]
  exact congrArg (fun g => GnnSpec.meanNb g (nbrs x1 b n)) (funext fun m => v26_eq x0 x1 x2 x3 x5 x7 x8 h3 b m e)

/-- The embedding after the second round. -/
theorem v40_eq (h1 : ∀ i, (x1 i : BitVec 32).toNat < 512) (h3 : ∀ i, (x3 i : BitVec 32).toNat < 512)
    (b : Fin 64) (n : Fin 512) (f : Fin 128) :
    Read.val_main_v40 (F := Ideal) x0 x1 x2 x3 x5 x7 x8 (ix3 b n f)
      = GnnSpec.embed2 (rows x0 b) (rows x2 b) (nbrs x1 b) (nbrs x3 b) (mat x5) (mat x7) (mat x8) n f := by
  have h37 : Read.val_main_v37 (F := Ideal) x0 x1 x2 x3 x5 x7 x8 (ix3 b n f)
      = ∑ e : Fin 128, GnnSpec.meanNb (fun m => GnnSpec.embed1 (rows x0 b) (rows x2 b) (nbrs x3 b) (mat x5) (mat x7) m e)
          (nbrs x1 b n) * mat x8 e f := by
    rw [Read.val_main_v37_apply]
    refine Finset.sum_congr rfl fun e _ => ?_
    have el : Read.lidx_main_v37 (ix3 b n f) e = ix3 b n e := funext fun a => Fin.ext (by match a with | ⟨0, _⟩ => rfl | ⟨1, _⟩ => rfl | ⟨2, _⟩ => rfl)
    have er : Read.ridx_main_v37 (ix3 b n f) e = ix2 e f := funext fun a => Fin.ext (by match a with | ⟨0, _⟩ => rfl | ⟨1, _⟩ => rfl)
    rw [el, er, v36_eq x0 x1 x2 x3 x5 x7 x8 h1 h3]
  rw [Read.val_main_v40_apply, Ideal.hostUnary_tanh_def, Read.val_main_v39_apply, Ideal.addf_def, Read.val_main_v38_apply,
    Ideal.addf_def, h37, v11_eq, v10_eq x2 x3 x5 h3]
  rfl

/-! ## The masked sum over the nodes and the last projection -/

theorem v44_eq (h1 : ∀ i, (x1 i : BitVec 32).toNat < 512) (h3 : ∀ i, (x3 i : BitVec 32).toNat < 512)
    (b : Fin 64) (e : Fin 128) :
    Read.val_main_v44 (F := Ideal) x0 x1 x2 x3 x4 x5 x7 x8 (ix2 b e)
      = GnnSpec.pooled (rows x0 b) (rows x2 b) (nbrs x1 b) (nbrs x3 b) (fun n => x4 (ix2 b n)) (mat x5) (mat x7) (mat x8) e := by
  rw [Read.val_main_v44_apply, Read.val_main_cst_11_apply, Ideal.ofBits_def, Ideal.ofBits_zero_f32, zero_add]
  unfold GnnSpec.pooled
  refine Finset.sum_congr rfl fun n _ => ?_
  have e44 : Read.idx_main_v44 (ix2 b e) n = ix3 b n e := funext fun a => Fin.ext (by match a with | ⟨0, _⟩ => rfl | ⟨1, _⟩ => rfl | ⟨2, _⟩ => rfl)
  have e42 : Read.idx_main_v41 (Read.idx_main_v42 (ix3 b n e)) = ix2 b n := funext fun a => Fin.ext (by match a with | ⟨0, _⟩ => rfl | ⟨1, _⟩ => rfl)
  rw [e44, Read.val_main_v43_apply, Ideal.mulf_def, Read.val_main_v42_apply, Read.val_main_v41_apply, e42,
    v40_eq x0 x1 x2 x3 x5 x7 x8 h1 h3, mul_comm]

end Stages

/-- With every neighbour index in range, the reference's last stage is `GnnSpec.G` of its arguments. -/
theorem ref_is_G (x0 : (⟨S64x512x128, .f32⟩ : BufTy).Contents (Elt Ideal)) (x1 : (⟨S64x512x16, .i32⟩ : BufTy).Contents (Elt Ideal))
    (x2 : (⟨S64x512x128, .f32⟩ : BufTy).Contents (Elt Ideal)) (x3 : (⟨S64x512x16, .i32⟩ : BufTy).Contents (Elt Ideal))
    (x4 : (⟨S64x512, .f32⟩ : BufTy).Contents (Elt Ideal)) (x5 x6 x7 x8 : (⟨S128x128, .f32⟩ : BufTy).Contents (Elt Ideal))
    (h1 : ∀ i, (x1 i : BitVec 32).toNat < 512) (h3 : ∀ i, (x3 i : BitVec 32).toNat < 512) :
    Cert.ReferenceIdeal.Read.val_main_v45 (F := Ideal) x0 x1 x2 x3 x4 x5 x6 x7 x8
      = GnnSpec.G x0 x1 x2 x3 x4 x5 x6 x7 x8 := by
  funext i
  obtain ⟨b, f, rfl⟩ : ∃ (b : Fin 64) (f : Fin 128), i = ix2 b f := ⟨i 0, i 1, eq_ix2 i⟩
  show Read.val_main_v45 (F := Ideal) x0 x1 x2 x3 x4 x5 x6 x7 x8 (ix2 b f)
    = GnnSpec.out (rows x0 b) (rows x2 b) (nbrs x1 b) (nbrs x3 b) (fun n => x4 (ix2 b n)) (mat x5) (mat x6) (mat x7) (mat x8) f
  rw [Read.val_main_v45_apply]
  unfold GnnSpec.out
  refine Finset.sum_congr rfl fun e _ => ?_
  have el : Read.lidx_main_v45 (ix2 b f) e = ix2 b e := funext fun a => Fin.ext (by match a with | ⟨0, _⟩ => rfl | ⟨1, _⟩ => rfl)
  have er : Read.ridx_main_v45 (ix2 b f) e = ix2 e f := funext fun a => Fin.ext (by match a with | ⟨0, _⟩ => rfl | ⟨1, _⟩ => rfl)
  rw [el, er, v44_eq x0 x1 x2 x3 x4 x5 x7 x8 h1 h3]

end Cert.ReferenceIdeal.RefValue

end
-- ==== Proof.PreRange.lean ====
/-
  What the precondition says of the two index arrays: every neighbour index is a node, 0 ≤ index < 512.
-/
import proofs.«406225_j87170656239793_3_alg».proof.Pre_finite_inputs
import proofs.«406225_j87170656239793_3_alg».proof.Proof.Gen.Pre_finite_inputs
import Idealize.ShloMosaic.PureOps.Ideal
import Idealize.ShloMosaic.Lib.ReduceAll
import Idealize.ShloMosaic.Lib.ValueIdx
import Idealize.ShloMosaic.Lib.WordArith

noncomputable section

namespace Cert.PreRange

open Idealize.ShloMosaic Cert.Pre_finite_inputs

/-
  The precondition is a conjunction of eleven scalar bits joined by `and`, nested to the left. Its last four are
  all(a1 ≥ 0), all(a1 < 512), all(a3 ≥ 0), all(a3 < 512), each an `and`-reduction over all three axes of an
  elementwise SIGNED comparison of the array with a broadcast constant. A conjunction that is 1 has every conjunct 1;
  an `and`-reduction to a scalar that is 1 has a 1 at every element; and a 32-bit word that is signed-nonnegative
  and signed-below 512 is below 512 as a natural number.
-/

/-- The scalar shape has exactly one index. -/
instance : Subsingleton S_.Idx := ⟨fun a b => funext fun d => d.elim0⟩

/-- A 32-bit word whose signed reading lies in [0, 512) is below 512 read unsigned: the two comparison bits are the
    Booleans `0 ≤ₛ w` and `w <ₛ 512`, and a signed-nonnegative word has its sign bit clear, so both readings are the
    same number. -/
theorem toNat_lt_of_signed (w : BitVec 32) (h0 : IntOp.cmpi .sge w 0#32 = 1#1)
    (h1 : IntOp.cmpi .slt w 512#32 = 1#1) : w.toNat < 512 :=
  WordArith.toNat_lt_of_zero_sle_of_slt_ofNat w 512 (by norm_num)
    ((WordArith.ofBool_eq_one_iff _).1 h0) ((WordArith.ofBool_eq_one_iff _).1 h1)

variable [Cert.Pre_finite_inputs.Facts]

/-- If the precondition evaluates to true, both index arrays hold words below 512 (read unsigned; the signed
    reading is then the same number and is nonnegative). -/
theorem range_of_pre (a0 : FVec Ideal S64x512x128 .f32) (a1 : IVec S64x512x16 32) (a2 : FVec Ideal S64x512x128 .f32)
    (a3 : IVec S64x512x16 32) (a4 : FVec Ideal S64x512 .f32) (a5 a6 a7 a8 : FVec Ideal S128x128 .f32)
    (h : Cert.Pre_finite_inputs.fn (F := Ideal) a0 a1 a2 a3 a4 a5 a6 a7 a8 = fun _ => 1#1) :
    (∀ i, (a1 i).toNat < 512) ∧ (∀ i, (a3 i).toNat < 512) := by
  -- the scalar result at its one index, with the chain of operations in view
  have e := congrFun h ValueIdx.ix0
  dsimp only [Cert.Pre_finite_inputs.fn, fn_part1, fn_part2, andi] at e
  -- every conjunct is 1; the first seven (finiteness of the float arrays) are not needed here
  simp only [IntOp.andi_eq_one] at e
  obtain ⟨⟨⟨⟨-, h1⟩, h2⟩, h3⟩, h4⟩ := e
  -- each reduction gives its comparison bit at every element; the broadcast constant reads as the constant there
  refine ⟨fun i => ?_, fun i => ?_⟩
  · have p := Host.reduce_andi_all _ _ _ _ _ h1 i
    have q := Host.reduce_andi_all _ _ _ _ _ h2 i
    exact toNat_lt_of_signed (a1 i) p q
  · have p := Host.reduce_andi_all _ _ _ _ _ h3 i
    have q := Host.reduce_andi_all _ _ _ _ _ h4 i
    exact toNat_lt_of_signed (a3 i) p q

end Cert.PreRange

end
-- ==== Proof.lean ====
/-
  The certificate: a two-round graph network over 64 batch elements of 512 nodes with 16 neighbour slots each,
  computed by a kernel that turns each neighbour gather into a product with a dense 512 × 512 matrix of slot
  counts over 16, against a reference that gathers the rows and takes their mean.

  The three frames are the generated ones (the reference's is its generated run with the result dropped) and the
  idealization rewrote nothing. The value claim: under the precondition — the float inputs finite and every
  neighbour index a node, 0 ≤ index < 512 — both programs end with the result array at `GnnSpec.G` of the
  arguments. For the kernel that is the block each grid point stores (KernelBlock) laid out over the array and
  reshaped by the host (KernelArray); for the reference it is its run read operation by operation (RefValue).
  The two meet in the law `GnnSpec.onehot_mean`, which holds on all extended reals, so of the precondition only
  the index range is ever used (PreRange).
-/
import proofs.«406225_j87170656239793_3_alg».proof.Defs
import proofs.«406225_j87170656239793_3_alg».proof.Proof.Gen.Kernel
import proofs.«406225_j87170656239793_3_alg».proof.Proof.Gen.Kernel.Skeleton
import proofs.«406225_j87170656239793_3_alg».proof.Proof.Gen.Kernel.Launch
import proofs.«406225_j87170656239793_3_alg».proof.Proof.Gen.Kernel.Points
import proofs.«406225_j87170656239793_3_alg».proof.Proof.Gen.Kernel.Frame
import proofs.«406225_j87170656239793_3_alg».proof.Proof.Gen.KernelIdeal
import proofs.«406225_j87170656239793_3_alg».proof.Proof.Gen.KernelIdeal.Skeleton
import proofs.«406225_j87170656239793_3_alg».proof.Proof.Gen.KernelIdeal.Launch
import proofs.«406225_j87170656239793_3_alg».proof.Proof.Gen.KernelIdeal.Points
import proofs.«406225_j87170656239793_3_alg».proof.Proof.Gen.KernelIdeal.Frame
import proofs.«406225_j87170656239793_3_alg».proof.Proof.Gen.ReferenceIdeal
import proofs.«406225_j87170656239793_3_alg».proof.Proof.Gen.Pre_finite_inputs
import proofs.«406225_j87170656239793_3_alg».proof.Proof.Gen.ReferenceIdeal.Run
import proofs.«406225_j87170656239793_3_alg».proof.Proof.Gen.ReferenceIdeal.Read
import proofs.«406225_j87170656239793_3_alg».proof.Proof.Spec
import proofs.«406225_j87170656239793_3_alg».proof.Proof.KernelBlock
import proofs.«406225_j87170656239793_3_alg».proof.Proof.KernelArray
import proofs.«406225_j87170656239793_3_alg».proof.Proof.RefValue
import proofs.«406225_j87170656239793_3_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at `GnnSpec.G` of the arguments: the kernel by its run, the reference by its run read back,
    the index range taken from the precondition and carried across the arguments' agreement. -/
theorem algebraic : Cert.algebraic_KernelIdeal_ReferenceIdeal := by
  intro m ρ m' ρ' hpre hagree
  have hr := fun c => Cert.PreRange.range_of_pre _ _ _ _ _ _ _ _ _ (hpre c)
  refine ⟨_, Cert.KernelIdeal.KArray.kernel_run m ρ (fun c => (hr c).1) (fun c => (hr c).2), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2]
  exact (Cert.ReferenceIdeal.Read.val_main_v45_eq _ _ _ _ _ _ _ _ _).trans
    (Cert.ReferenceIdeal.RefValue.ref_is_G _ _ _ _ _ _ _ _ _ (hr c).1 (hr c).2)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
